-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x768 : Shape := ⟨3, ![8, 256, 768]⟩
abbrev S1001x768 : Shape := ⟨2, ![1001, 768]⟩
abbrev S1001 : Shape := ⟨1, ![1001]⟩
abbrev S301x1536 : Shape := ⟨2, ![301, 1536]⟩
abbrev S301 : Shape := ⟨1, ![301]⟩
abbrev S_ : Shape := ⟨0, ![]⟩

class Facts : Prop where
  bcast_S_S8x256x768 : S_.BroadcastsInDim S8x256x768 (![] : Fin 0 → Fin S8x256x768.rank)
  reducesTo_S8x256x768_S_d0_1_2 : S8x256x768.ReducesTo [0, 1, 2] S_
  h_S_ : 0 < S_.numel
  bcast_S_S1001x768 : S_.BroadcastsInDim S1001x768 (![] : Fin 0 → Fin S1001x768.rank)
  reducesTo_S1001x768_S_d0_1 : S1001x768.ReducesTo [0, 1] S_
  bcast_S_S1001 : S_.BroadcastsInDim S1001 (![] : Fin 0 → Fin S1001.rank)
  reducesTo_S1001_S_d0 : S1001.ReducesTo [0] S_
  bcast_S_S301x1536 : S_.BroadcastsInDim S301x1536 (![] : Fin 0 → Fin S301x1536.rank)
  reducesTo_S301x1536_S_d0_1 : S301x1536.ReducesTo [0, 1] S_
  bcast_S_S301 : S_.BroadcastsInDim S301 (![] : Fin 0 → Fin S301.rank)
  reducesTo_S301_S_d0 : S301.ReducesTo [0] S_

variable [Facts]

def fn_part1 {F : FTy → Type} [FloatOps F] (main_arg4 : FVec F S301 .f32) (main_v13 : IVec S_ 1) (main_v16 : IVec S301x1536 1) : IVec S_ 1 :=
  let main_c_5 : IVec S_ 1 := constantI S_ 1 1#1
  let main_v17 : IVec S_ 1 := (fun x v => Host.reduce IntOp.andi x v reducesTo_S301x1536_S_d0_1 h_S_) main_v16 main_c_5
  let main_v18 : IVec S_ 1 := andi main_v13 main_v17
  let main_v19 : FVec F S301 .f32 := Host.absf main_arg4
  let main_cst_6 : FVec F S_ .f32 := constant S_ .f32 0x7F800000#32
  let main_v20 : FVec F S301 .f32 := broadcastInDim S301 ![] bcast_S_S301 main_cst_6
  let main_v21 : IVec S301 1 := cmpf .olt main_v19 main_v20
  let main_c_7 : IVec S_ 1 := constantI S_ 1 1#1
  let main_v22 : IVec S_ 1 := (fun x v => Host.reduce IntOp.andi x v reducesTo_S301_S_d0 h_S_) main_v21 main_c_7
  let main_v23 : IVec S_ 1 := andi main_v18 main_v22
  main_v23

def fn {F : FTy → Type} [FloatOps F] (main_arg0 : FVec F S8x256x768 .f32) (main_arg1 : FVec F S1001x768 .f32) (main_arg2 : FVec F S1001 .f32) (main_arg3 : FVec F S301x1536 .f32) (main_arg4 : FVec F S301 .f32) : IVec S_ 1 :=
  let main_v0 : FVec F S8x256x768 .f32 := Host.absf main_arg0
  let main_cst : FVec F S_ .f32 := constant S_ .f32 0x7F800000#32
  let main_v1 : FVec F S8x256x768 .f32 := broadcastInDim S8x256x768 ![] bcast_S_S8x256x768 main_cst
  let main_v2 : IVec S8x256x768 1 := cmpf .olt main_v0 main_v1
  let main_c : IVec S_ 1 := constantI S_ 1 1#1
  let main_v3 : IVec S_ 1 := (fun x v => Host.reduce IntOp.andi x v reducesTo_S8x256x768_S_d0_1_2 h_S_) main_v2 main_c
  let main_v4 : FVec F S1001x768 .f32 := Host.absf main_arg1
  let main_cst_0 : FVec F S_ .f32 := constant S_ .f32 0x7F800000#32
  let main_v5 : FVec F S1001x768 .f32 := broadcastInDim S1001x768 ![] bcast_S_S1001x768 main_cst_0
  let main_v6 : IVec S1001x768 1 := cmpf .olt main_v4 main_v5
  let main_c_1 : IVec S_ 1 := constantI S_ 1 1#1
  let main_v7 : IVec S_ 1 := (fun x v => Host.reduce IntOp.andi x v reducesTo_S1001x768_S_d0_1 h_S_) main_v6 main_c_1
  let main_v8 : IVec S_ 1 := andi main_v3 main_v7
  let main_v9 : FVec F S1001 .f32 := Host.absf main_arg2
  let main_cst_2 : FVec F S_ .f32 := constant S_ .f32 0x7F800000#32
  let main_v10 : FVec F S1001 .f32 := broadcastInDim S1001 ![] bcast_S_S1001 main_cst_2
  let main_v11 : IVec S1001 1 := cmpf .olt main_v9 main_v10
  let main_c_3 : IVec S_ 1 := constantI S_ 1 1#1
  let main_v12 : IVec S_ 1 := (fun x v => Host.reduce IntOp.andi x v reducesTo_S1001_S_d0 h_S_) main_v11 main_c_3
  let main_v13 : IVec S_ 1 := andi main_v8 main_v12
  let main_v14 : FVec F S301x1536 .f32 := Host.absf main_arg3
  let main_cst_4 : FVec F S_ .f32 := constant S_ .f32 0x7F800000#32
  let main_v15 : FVec F S301x1536 .f32 := broadcastInDim S301x1536 ![] bcast_S_S301x1536 main_cst_4
  let main_v16 : IVec S301x1536 1 := cmpf .olt main_v14 main_v15
  fn_part1 (F := F) main_arg4 main_v13 main_v16
-- ==== Kernel.lean ====
abbrev S8x256x768 : Shape := ⟨3, ![8, 256, 768]⟩
abbrev S1001x768 : Shape := ⟨2, ![1001, 768]⟩
abbrev S1001 : Shape := ⟨1, ![1001]⟩
abbrev S301x1536 : Shape := ⟨2, ![301, 1536]⟩
abbrev S301 : Shape := ⟨1, ![301]⟩
abbrev S2048x768 : Shape := ⟨2, ![2048, 768]⟩
abbrev S301x768 : Shape := ⟨2, ![301, 768]⟩
abbrev S1603x768 : Shape := ⟨2, ![1603, 768]⟩
abbrev S_ : Shape := ⟨0, ![]⟩
abbrev S1603 : Shape := ⟨1, ![1603]⟩
abbrev S1x1603 : Shape := ⟨2, ![1, 1603]⟩
abbrev S2048x1603 : Shape := ⟨2, ![2048, 1603]⟩
abbrev S512x768 : Shape := ⟨2, ![512, 768]⟩
abbrev S512x1603 : Shape := ⟨2, ![512, 1603]⟩
abbrev S2048x1001 : Shape := ⟨2, ![2048, 1001]⟩
abbrev S8x256x1001 : Shape := ⟨3, ![8, 256, 1001]⟩
abbrev S2048x301 : Shape := ⟨2, ![2048, 301]⟩
abbrev S8x256x301 : Shape := ⟨3, ![8, 256, 301]⟩
abbrev S1x301 : Shape := ⟨2, ![1, 301]⟩
abbrev S8x256x256x301 : Shape := ⟨4, ![8, 256, 256, 301]⟩
abbrev S1x64x301 : Shape := ⟨3, ![1, 64, 301]⟩
abbrev S1x64x64x301 : Shape := ⟨4, ![1, 64, 64, 301]⟩
abbrev S64x301 : Shape := ⟨2, ![64, 301]⟩
abbrev S64x1x301 : Shape := ⟨3, ![64, 1, 301]⟩
abbrev S64x64x301 : Shape := ⟨3, ![64, 64, 301]⟩
abbrev S1x1x301 : Shape := ⟨3, ![1, 1, 301]⟩

abbrev nBuf : Space → Nat
  | .hbm => 24
  | .vmem => 13
  | .smem => 0
  | _ => 0

abbrev bufTy : (tb : Table) → Fin (tcTables nBuf tb) → BufTy
  | .hbm, ⟨0, _⟩ => ⟨S8x256x768, .f32⟩
  | .hbm, ⟨1, _⟩ => ⟨S1001x768, .f32⟩
  | .hbm, ⟨2, _⟩ => ⟨S1001, .f32⟩
  | .hbm, ⟨3, _⟩ => ⟨S301x1536, .f32⟩
  | .hbm, ⟨4, _⟩ => ⟨S301, .f32⟩
  | .hbm, ⟨5, _⟩ => ⟨S2048x768, .f32⟩
  | .hbm, ⟨6, _⟩ => ⟨S301x768, .f32⟩
  | .hbm, ⟨7, _⟩ => ⟨S301x768, .f32⟩
  | .hbm, ⟨8, _⟩ => ⟨S1603x768, .f32⟩
  | .hbm, ⟨9, _⟩ => ⟨S_, .f32⟩
  | .hbm, ⟨10, _⟩ => ⟨S301, .f32⟩
  | .hbm, ⟨11, _⟩ => ⟨S_, .f32⟩
  | .hbm, ⟨12, _⟩ => ⟨S301, .f32⟩
  | .hbm, ⟨13, _⟩ => ⟨S1603, .f32⟩
  | .hbm, ⟨14, _⟩ => ⟨S1x1603, .f32⟩
  | .hbm, ⟨15, _⟩ => ⟨S2048x1603, .f32⟩
  | .hbm, ⟨16, _⟩ => ⟨S2048x1001, .f32⟩
  | .hbm, ⟨17, _⟩ => ⟨S8x256x1001, .f32⟩
  | .hbm, ⟨18, _⟩ => ⟨S2048x301, .f32⟩
  | .hbm, ⟨19, _⟩ => ⟨S8x256x301, .f32⟩
  | .hbm, ⟨20, _⟩ => ⟨S2048x301, .f32⟩
  | .hbm, ⟨21, _⟩ => ⟨S8x256x301, .f32⟩
  | .hbm, ⟨22, _⟩ => ⟨S1x301, .f32⟩
  | .hbm, ⟨23, _⟩ => ⟨S8x256x256x301, .f32⟩
  | .local _ .vmem, ⟨0, _⟩ => ⟨S512x768, .f32⟩
  | .local _ .vmem, ⟨1, _⟩ => ⟨S512x768, .f32⟩
  | .local _ .vmem, ⟨2, _⟩ => ⟨S1603x768, .f32⟩
  | .local _ .vmem, ⟨3, _⟩ => ⟨S1x1603, .f32⟩
  | .local _ .vmem, ⟨4, _⟩ => ⟨S512x1603, .f32⟩
  | .local _ .vmem, ⟨5, _⟩ => ⟨S512x1603, .f32⟩
  | .local _ .vmem, ⟨6, _⟩ => ⟨S1x64x301, .f32⟩
  | .local _ .vmem, ⟨7, _⟩ => ⟨S1x64x301, .f32⟩
  | .local _ .vmem, ⟨8, _⟩ => ⟨S1x64x301, .f32⟩
  | .local _ .vmem, ⟨9, _⟩ => ⟨S1x64x301, .f32⟩
  | .local _ .vmem, ⟨10, _⟩ => ⟨S1x301, .f32⟩
  | .local _ .vmem, ⟨11, _⟩ => ⟨S1x64x64x301, .f32⟩
  | .local _ .vmem, ⟨12, _⟩ => ⟨S1x64x64x301, .f32⟩
  | _, _ => ⟨S8x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1603x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1603 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1603 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x64x301 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x64x301 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S1x301 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1x64x64x301 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  shapeCasts_S8x256x768_S2048x768 : S8x256x768.ShapeCasts S2048x768
  slices_S301x1536_S301x768_0_0 : S301x1536.Slices ![0, 0] S301x768
  slices_S301x1536_S301x768_0_768 : S301x1536.Slices ![0, 768] S301x768
  concatenates_S1001x768_S301x768_S301x768_S1603x768_d0 : Shape.Concatenates [S1001x768, S301x768, S301x768] S1603x768 0
  bcast_S_S301 : S_.BroadcastsInDim S301 (![] : Fin 0 → Fin S301.rank)
  concatenates_S1001_S301_S301_S1603_d0 : Shape.Concatenates [S1001, S301, S301] S1603 0
  shapeCasts_S1603_S1x1603 : S1603.ShapeCasts S1x1603
  inb_S512x768_S512x768_0_0 : ∀ a, (![0, 0] : Fin 2 → Nat) a + S512x768.size a ≤ S512x768.size a
  h_S512x768 : 0 < S512x768.numel
  shapeCasts_S512x768_S512x768 : S512x768.ShapeCasts S512x768
  bitsLt_bf16_f32 : FTy.bits .bf16 < FTy.bits .f32
  inb_S1603x768_S1603x768_0_0 : ∀ a, (![0, 0] : Fin 2 → Nat) a + S1603x768.size a ≤ S1603x768.size a
  h_S1603x768 : 0 < S1603x768.numel
  shapeCasts_S1603x768_S1603x768 : S1603x768.ShapeCasts S1603x768
  inb_S1x1603_S1x1603_0_0 : ∀ a, (![0, 0] : Fin 2 → Nat) a + S1x1603.size a ≤ S1x1603.size a
  h_S1x1603 : 0 < S1x1603.numel
  shapeCasts_S1x1603_S1x1603 : S1x1603.ShapeCasts S1x1603
  broadcasts_S1x1603_S512x1603 : S1x1603.Broadcasts S512x1603
  inb_S512x1603_S512x1603_0_0 : ∀ a, (![0, 0] : Fin 2 → Nat) a + S512x1603.size a ≤ S512x1603.size a
  h_S512x1603 : 0 < S512x1603.numel
  slices_S2048x1603_S2048x1001_0_0 : S2048x1603.Slices ![0, 0] S2048x1001
  shapeCasts_S2048x1001_S8x256x1001 : S2048x1001.ShapeCasts S8x256x1001
  slices_S2048x1603_S2048x301_0_1001 : S2048x1603.Slices ![0, 1001] S2048x301
  shapeCasts_S2048x301_S8x256x301 : S2048x301.ShapeCasts S8x256x301
  slices_S2048x1603_S2048x301_0_1302 : S2048x1603.Slices ![0, 1302] S2048x301
  shapeCasts_S301_S1x301 : S301.ShapeCasts S1x301
  inb_S1x64x301_S1x64x301_0_0_0 : ∀ a, (![0, 0, 0] : Fin 3 → Nat) a + S1x64x301.size a ≤ S1x64x301.size a
  h_S1x64x301 : 0 < S1x64x301.numel
  shapeCasts_S1x64x301_S64x301 : S1x64x301.ShapeCasts S64x301
  inb_S1x301_S1x301_0_0 : ∀ a, (![0, 0] : Fin 2 → Nat) a + S1x301.size a ≤ S1x301.size a
  h_S1x301 : 0 < S1x301.numel
  shapeCasts_S1x301_S1x301 : S1x301.ShapeCasts S1x301
  shapeCasts_S64x301_S64x1x301 : S64x301.ShapeCasts S64x1x301
  shapeCasts_S64x301_S1x64x301 : S64x301.ShapeCasts S1x64x301
  broadcasts_S64x1x301_S64x64x301 : S64x1x301.Broadcasts S64x64x301
  broadcasts_S1x64x301_S64x64x301 : S1x64x301.Broadcasts S64x64x301
  shapeCasts_S1x301_S301 : S1x301.ShapeCasts S301
  shapeCasts_S301_S1x1x301 : S301.ShapeCasts S1x1x301
  broadcasts_S1x1x301_S64x64x301 : S1x1x301.Broadcasts S64x64x301
  inb_S1x64x64x301_S1x64x64x301_0_0_0_0 : ∀ a, (![0, 0, 0, 0] : Fin 4 → Nat) a + S1x64x64x301.size a ≤ S1x64x64x301.size a
  h_S1x64x64x301 : 0 < S1x64x64x301.numel
  shapeCasts_S1x64x64x301_S64x64x301 : S1x64x64x301.ShapeCasts S64x64x301
  shapeCasts_S64x64x301_S1x64x64x301 : S64x64x301.ShapeCasts S1x64x64x301
  dot_S512x768_S1603x768_S512x1603_1_1_0_0_n_n_wf : DotDims.WF S512x768 S1603x768 S512x1603 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S2048x768.size a
  hwx0_0 : ∀ i : grid0.Coords, EltTy.bits .f32 = 32 ∨ (Rect.block (s := S2048x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1603x768.size a ≤ S1603x768.size a
  hwx0_1 : ∀ i : grid0.Coords, EltTy.bits .f32 = 32 ∨ (Rect.block (s := S1603x768) S1603x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1603.size a ≤ S1x1603.size a
  hwx0_2 : ∀ i : grid0.Coords, EltTy.bits .f32 = 32 ∨ (Rect.block (s := S1x1603) S1x1603.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1603.size a ≤ S2048x1603.size a
  hwx0_3 : ∀ i : grid0.Coords, EltTy.bits .f32 = 32 ∨ (Rect.block (s := S2048x1603) S512x1603.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x301.size a ≤ S8x256x301.size a
  hwx1_0 : ∀ i : grid1.Coords, EltTy.bits .f32 = 32 ∨ (Rect.block (s := S8x256x301) S1x64x301.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x301.size a ≤ S8x256x301.size a
  hwx1_1 : ∀ i : grid1.Coords, EltTy.bits .f32 = 32 ∨ (Rect.block (s := S8x256x301) S1x64x301.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x301.size a ≤ S1x301.size a
  hwx1_2 : ∀ i : grid1.Coords, EltTy.bits .f32 = 32 ∨ (Rect.block (s := S1x301) S1x301.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x64x301.size a ≤ S8x256x256x301.size a
  hwx1_3 : ∀ i : grid1.Coords, EltTy.bits .f32 = 32 ∨ (Rect.block (s := S8x256x256x301) S1x64x64x301.size (cc1_transform_3 i) (hinb1_3 i)).WholeWords (EltTy.packing .f32)

variable [Facts₀]

def dot_S512x768_S1603x768_S512x1603_1_1_0_0_n_n : DotDims S512x768 S1603x768 S512x1603 where
  lhsContracting := [1]
  rhsContracting := [1]
  lhsNonContracting := [0]
  rhsNonContracting := [0]
  lhsBatch := []
  rhsBatch := []
  wf := dot_S512x768_S1603x768_S512x1603_1_1_0_0_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1603x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1603.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x1603.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S1x64x301.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x64x301.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x301.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64x64x301.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x256x768 : Shape := ⟨3, ![8, 256, 768]⟩
abbrev S1001x768 : Shape := ⟨2, ![1001, 768]⟩
abbrev S1001 : Shape := ⟨1, ![1001]⟩
abbrev S301x1536 : Shape := ⟨2, ![301, 1536]⟩
abbrev S301 : Shape := ⟨1, ![301]⟩
abbrev S8x256x1001 : Shape := ⟨3, ![8, 256, 1001]⟩
abbrev S1x1x1001 : Shape := ⟨3, ![1, 1, 1001]⟩
abbrev S301x768 : Shape := ⟨2, ![301, 768]⟩
abbrev S8x256x301 : Shape := ⟨3, ![8, 256, 301]⟩
abbrev S8x256x1x301 : Shape := ⟨4, ![8, 256, 1, 301]⟩
abbrev S8x1x256x301 : Shape := ⟨4, ![8, 1, 256, 301]⟩
abbrev S8x256x256x301 : Shape := ⟨4, ![8, 256, 256, 301]⟩
abbrev S1x1x1x301 : Shape := ⟨4, ![1, 1, 1, 301]⟩

abbrev nBuf : Space → Nat
  | .hbm => 21
  | .vmem => 0
  | .smem => 0
  | _ => 0

abbrev bufTy : (tb : Table) → Fin (tcTables nBuf tb) → BufTy
  | .hbm, ⟨0, _⟩ => ⟨S8x256x768, .f32⟩
  | .hbm, ⟨1, _⟩ => ⟨S1001x768, .f32⟩
  | .hbm, ⟨2, _⟩ => ⟨S1001, .f32⟩
  | .hbm, ⟨3, _⟩ => ⟨S301x1536, .f32⟩
  | .hbm, ⟨4, _⟩ => ⟨S301, .f32⟩
  | .hbm, ⟨5, _⟩ => ⟨S8x256x1001, .f32⟩
  | .hbm, ⟨6, _⟩ => ⟨S1x1x1001, .f32⟩
  | .hbm, ⟨7, _⟩ => ⟨S8x256x1001, .f32⟩
  | .hbm, ⟨8, _⟩ => ⟨S8x256x1001, .f32⟩
  | .hbm, ⟨9, _⟩ => ⟨S301x768, .f32⟩
  | .hbm, ⟨10, _⟩ => ⟨S301x768, .f32⟩
  | .hbm, ⟨11, _⟩ => ⟨S8x256x301, .f32⟩
  | .hbm, ⟨12, _⟩ => ⟨S8x256x301, .f32⟩
  | .hbm, ⟨13, _⟩ => ⟨S8x256x1x301, .f32⟩
  | .hbm, ⟨14, _⟩ => ⟨S8x1x256x301, .f32⟩
  | .hbm, ⟨15, _⟩ => ⟨S8x256x256x301, .f32⟩
  | .hbm, ⟨16, _⟩ => ⟨S8x256x256x301, .f32⟩
  | .hbm, ⟨17, _⟩ => ⟨S8x256x256x301, .f32⟩
  | .hbm, ⟨18, _⟩ => ⟨S1x1x1x301, .f32⟩
  | .hbm, ⟨19, _⟩ => ⟨S8x256x256x301, .f32⟩
  | .hbm, ⟨20, _⟩ => ⟨S8x256x256x301, .f32⟩
  | _, _ => ⟨S8x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  bcast_S1001_S1x1x1001_2 : S1001.BroadcastsInDim S1x1x1001 (![2] : Fin 1 → Fin S1x1x1001.rank)
  bcast_S1x1x1001_S8x256x1001_0_1_2 : S1x1x1001.BroadcastsInDim S8x256x1001 (![0, 1, 2] : Fin 3 → Fin S8x256x1001.rank)
  slices_S301x1536_S301x768_0_0 : S301x1536.Slices ![0, 0] S301x768
  slices_S301x1536_S301x768_0_768 : S301x1536.Slices ![0, 768] S301x768
  bcast_S8x256x301_S8x256x1x301_0_1_3 : S8x256x301.BroadcastsInDim S8x256x1x301 (![0, 1, 3] : Fin 3 → Fin S8x256x1x301.rank)
  bcast_S8x256x301_S8x1x256x301_0_2_3 : S8x256x301.BroadcastsInDim S8x1x256x301 (![0, 2, 3] : Fin 3 → Fin S8x1x256x301.rank)
  bcast_S8x256x1x301_S8x256x256x301_0_1_2_3 : S8x256x1x301.BroadcastsInDim S8x256x256x301 (![0, 1, 2, 3] : Fin 4 → Fin S8x256x256x301.rank)
  bcast_S8x1x256x301_S8x256x256x301_0_1_2_3 : S8x1x256x301.BroadcastsInDim S8x256x256x301 (![0, 1, 2, 3] : Fin 4 → Fin S8x256x256x301.rank)
  bcast_S301_S1x1x1x301_3 : S301.BroadcastsInDim S1x1x1x301 (![3] : Fin 1 → Fin S1x1x1x301.rank)
  bcast_S1x1x1x301_S8x256x256x301_0_1_2_3 : S1x1x1x301.BroadcastsInDim S8x256x256x301 (![0, 1, 2, 3] : Fin 4 → Fin S8x256x256x301.rank)
  dot_S8x256x768_S1001x768_S8x256x1001_2_1_01_0_n_n_wf : DotDims.WF S8x256x768 S1001x768 S8x256x1001 [2] [1] [0, 1] [0] [] []
  dot_S8x256x768_S301x768_S8x256x301_2_1_01_0_n_n_wf : DotDims.WF S8x256x768 S301x768 S8x256x301 [2] [1] [0, 1] [0] [] []

variable [Facts₀]

def dot_S8x256x768_S1001x768_S8x256x1001_2_1_01_0_n_n : DotDims S8x256x768 S1001x768 S8x256x1001 where
  lhsContracting := [2]
  rhsContracting := [1]
  lhsNonContracting := [0, 1]
  rhsNonContracting := [0]
  lhsBatch := []
  rhsBatch := []
  wf := dot_S8x256x768_S1001x768_S8x256x1001_2_1_01_0_n_n_wf
def dot_S8x256x768_S301x768_S8x256x301_2_1_01_0_n_n : DotDims S8x256x768 S301x768 S8x256x301 where
  lhsContracting := [2]
  rhsContracting := [1]
  lhsNonContracting := [0, 1]
  rhsNonContracting := [0]
  lhsBatch := []
  rhsBatch := []
  wf := dot_S8x256x768_S301x768_S8x256x301_2_1_01_0_n_n_wf

class Facts : Prop extends Facts₀ where

variable [Facts]
-- ==== Proof.KRegion0.lean ====
/-
  Region 0 of @main, the projection call: over a grid of four row blocks the body reads a 512-row block of the
  flattened states, the whole concatenated weight matrix and the whole concatenated bias row, and stores the block's
  product with the weights' transpose plus the bias row broadcast down the rows.  Stated at a parameter `V`, the
  core's buffer contents when the region is entered, and at any float instance: what the body leaves in the output
  block as a function of the three input blocks, the body's triple, the pipeline's proof data and the body obligation.
-/
import proofs.«175412_j6459630814081_1_alg».proof.Proof.Gen.Kernel.Launch
import proofs.«175412_j6459630814081_1_alg».proof.Proof.Gen.Kernel.Skeleton
import proofs.«175412_j6459630814081_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The states' staging buffer holds the point's row block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight matrix at every point, though it is fetched only at the first:
    its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's staging buffer likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev rx0 : Rect S512x768 := Rect.unit (s := S512x768) ![0, 0] S512x768.size inb_S512x768_S512x768_0_0
abbrev rw0 : Rect S1603x768 := Rect.unit (s := S1603x768) ![0, 0] S1603x768.size inb_S1603x768_S1603x768_0_0
abbrev rb0 : Rect S1x1603 := Rect.unit (s := S1x1603) ![0, 0] S1x1603.size inb_S1x1603_S1x1603_0_0
abbrev ro0 : Rect S512x1603 := Rect.unit (s := S512x1603) ![0, 0] S512x1603.size inb_S512x1603_S512x1603_0_0

/-! ## What the body leaves in the output block -/

/-- The output's staging buffer after the body, from the three input blocks: its one store, of the whole block. -/
def out0_3 (x0 : Vec F S512x768 .f32) (x1 : Vec F S1603x768 .f32) (x2 : Vec F S1x1603 .f32) : Vec F S512x1603 .f32 :=
  View.canon [⟨ro0, k0_pay1 (View.ld x0 rx0) (View.ld x1 rw0) (View.ld x2 rb0)⟩]

/-- The one store covers the buffer. -/
theorem cover0_3 (p0 : Vec F S512x1603 .f32) (y : S512x1603.Idx) :
    ∃ pc ∈ ([⟨ro0, p0⟩] : List (View.Piece (Elt F) S512x1603 .f32)), y ∈ pc.1.set :=
  View.cover_of_tiled [⟨ro0, p0⟩] S512x1603.size (by rfl) y

/-! ## The body's triple -/

set_option maxHeartbeats 1000000 in
/-- The body on whole staging memrefs, the inputs' at read contents `x0`, `x1`, `x2` and the output's at anything,
    runs to the continuation holding the inputs' as they were and the output's at `out0_3` of them. -/
theorem sound_kernel0 (c : Dev nD) (E : Set ℕ) (i : grid0.Coords) (arg1 : Memref sig .tc .vmem S512x768 .f32) (harg1 : arg1.IsWhole)
    (arg2 : Memref sig .tc .vmem S1603x768 .f32) (harg2 : arg2.IsWhole) (arg3 : Memref sig .tc .vmem S1x1603 .f32) (harg3 : arg3.IsWhole)
    (arg4 : Memref sig .tc .vmem S512x1603 .f32) (harg4 : arg4.IsWhole)
    (x0 : Vec F S512x768 .f32) (x1 : Vec F S1603x768 .f32) (x2 : Vec F S1x1603 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KRegion1.lean ====
/-
  Region 1 of @main, the pairwise expansion call: over a grid of batch × row tile × column tile the body reads a
  64-row block of the first projection (rows of tile i), a 64-row block of the second (rows of tile j) and the whole
  bias row, and stores the 64 × 64 × 301 block whose entry (a, b, n) is the first block's row a plus the second's row b
  plus the bias, at lane n.  Stated at a parameter `V`, the core's buffer contents when the region is entered, and at any
  float instance: what the body leaves in the output block as a function of the three input blocks, the body's triple,
  the pipeline's proof data and the body obligation.
-/
import proofs.«175412_j6459630814081_1_alg».proof.Proof.Gen.Kernel.Launch
import proofs.«175412_j6459630814081_1_alg».proof.Proof.Gen.Kernel.Skeleton
import proofs.«175412_j6459630814081_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first projection's staging buffer holds the point's block at every point, fetched there or not: where it is
    not fetched the block index (batch, row tile) has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second projection's staging buffer holds the point's block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the whole row at every point, though it is fetched only at the first. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev rp1 : Rect S1x64x301 := Rect.unit (s := S1x64x301) ![0, 0, 0] S1x64x301.size inb_S1x64x301_S1x64x301_0_0_0
abbrev rb1 : Rect S1x301 := Rect.unit (s := S1x301) ![0, 0] S1x301.size inb_S1x301_S1x301_0_0
abbrev ro1 : Rect S1x64x64x301 := Rect.unit (s := S1x64x64x301) ![0, 0, 0, 0] S1x64x64x301.size inb_S1x64x64x301_S1x64x64x301_0_0_0_0

/-! ## What the body leaves in the output block -/

/-- The output's staging buffer after the body, from the three input blocks: its one store, of the whole block. -/
def out1_3 (x0 : Vec F S1x64x301 .f32) (x1 : Vec F S1x64x301 .f32) (x2 : Vec F S1x301 .f32) : Vec F S1x64x64x301 .f32 :=
  View.canon [⟨ro1, k1_pay1 (View.ld x0 rp1) (View.ld x1 rp1) (View.ld x2 rb1)⟩]

/-- The one store covers the buffer. -/
theorem cover1_3 (p0 : Vec F S1x64x64x301 .f32) (y : S1x64x64x301.Idx) :
    ∃ pc ∈ ([⟨ro1, p0⟩] : List (View.Piece (Elt F) S1x64x64x301 .f32)), y ∈ pc.1.set :=
  View.cover_of_tiled [⟨ro1, p0⟩] S1x64x64x301.size (by rfl) y

/-! ## The body's triple -/

set_option maxHeartbeats 1000000 in
/-- The body on whole staging memrefs, the inputs' at read contents `x0`, `x1`, `x2` and the output's at anything,
    runs to the continuation holding the inputs' as they were and the output's at `out1_3` of them. -/
theorem sound_kernel1 (c : Dev nD) (E : Set ℕ) (i : grid1.Coords) (arg3 : Memref sig .tc .vmem S1x64x301 .f32) (harg3 : arg3.IsWhole)
    (arg4 : Memref sig .tc .vmem S1x64x301 .f32) (harg4 : arg4.IsWhole) (arg5 : Memref sig .tc .vmem S1x301 .f32) (harg5 : arg5.IsWhole)
    (arg6 : Memref sig .tc .vmem S1x64x64x301 .f32) (harg6 : arg6.IsWhole)
    (x0 : Vec F S1x64x301 .f32) (x1 : Vec F S1x64x301 .f32) (x2 : Vec F S1x301 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__bond_kernel i arg3 harg3 arg4 harg4 arg5 harg5 arg6 harg6) K := by
  simp only [cc1__bond_kernel_eq_skeleton]; unfold cc1__bond_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KRun.lean ====
/-
  The run of @main: a stretch of host operations (flatten the states, concatenate the three weight matrices and the
  three bias rows), the projection call, a second stretch (cut the combined projection into the atom logits and the two
  bond projections, reshape them), the pairwise expansion call.  The buffer contents at each of the five boundaries are
  a fold from the launch memory: a host stretch applies its operations, a region replaces its windows' arrays by what
  its write-backs leave.  Every weakly fair execution terminates with every unscoped buffer at the last boundary's
  contents; the argument arrays, which nothing writes, are there as launched.
-/
import proofs.«175412_j6459630814081_1_alg».proof.Proof.KRegion0
import proofs.«175412_j6459630814081_1_alg».proof.Proof.KRegion1
import proofs.«175412_j6459630814081_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the first host stretch: the projection call's entry. -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- At the projection call's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch: the expansion call's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the expansion call's exit. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-! ## A buffer no host operation writes and no region has for an array ends as launched -/

theorem B4_untouched (r : Ref sig .tc) (h0 : r ∉ hostOps0_W) (h1 : r ∉ hostOps1_W)
    (ha0 : ∀ w, Pipeline.arrRef spec0 w ≠ r) (ha1 : ∀ w, Pipeline.arrRef spec1 w ≠ r) (c : Dev nD) :
    B4 m ρ c (Proc.devRef .tc r) = m ((c : Thread nD τ).loc r) :=
  calc B4 m ρ c (Proc.devRef .tc r)
    _ = B3 m ρ c (Proc.devRef .tc r) := B4_of_ne m ρ c r ha1
    _ = B2 m ρ c (Proc.devRef .tc r) := StableHlo.after_of_writes_sub hostOps1 _ hostOps1_writes h1
    _ = B1 m ρ c (Proc.devRef .tc r) := B2_of_ne m ρ c r ha0
    _ = B0 m ρ c (Proc.devRef .tc r) := StableHlo.after_of_writes_sub hostOps0 _ hostOps0_writes h0
    _ = m ((c : Thread nD τ).loc r) := rfl

theorem B4_main_arg0 (c : Dev nD) : B4 m ρ c (Proc.devRef .tc main_arg0) = m ((c : Thread nD τ).loc main_arg0) :=
  B4_untouched m ρ main_arg0 (by decide) (by decide) (by decide) (by decide) c
theorem B4_main_arg1 (c : Dev nD) : B4 m ρ c (Proc.devRef .tc main_arg1) = m ((c : Thread nD τ).loc main_arg1) :=
  B4_untouched m ρ main_arg1 (by decide) (by decide) (by decide) (by decide) c
theorem B4_main_arg2 (c : Dev nD) : B4 m ρ c (Proc.devRef .tc main_arg2) = m ((c : Thread nD τ).loc main_arg2) :=
  B4_untouched m ρ main_arg2 (by decide) (by decide) (by decide) (by decide) c
theorem B4_main_arg3 (c : Dev nD) : B4 m ρ c (Proc.devRef .tc main_arg3) = m ((c : Thread nD τ).loc main_arg3) :=
  B4_untouched m ρ main_arg3 (by decide) (by decide) (by decide) (by decide) c
theorem B4_main_arg4 (c : Dev nD) : B4 m ρ c (Proc.devRef .tc main_arg4) = m ((c : Thread nD τ).loc main_arg4) :=
  B4_untouched m ρ main_arg4 (by decide) (by decide) (by decide) (by decide) c

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱n : Variants := Variants.none
/-- No core owes another anything: no level is assigned. -/
abbrev Ln : GSem nD τ sig → Finset Unit := fun _ => ∅
abbrev lvn : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tlast (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- Region 0 over the thread state: entered from every unscoped buffer at the boundary before it, left at the
    boundary after it.  Its arrays are split out of the unscoped buffers and put back at the exit contents; the generator
    register goes into the pipeline's invariant and comes out; nothing is owed; the kernel has no semaphore of its own. -/
def reg0 : Pipeline.RegionSeg (pcfgs (F := F)) adm (pdats m ρ) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Ln lvn 0 fun _ _ => rfl
  pre c := iprop(StableHlo.held (c : Thread nD τ) (Pipeline.ucRefs τ sig) (B1 m ρ c) ∗ Rst c)
  post c := iprop(StableHlo.held (c : Thread nD τ) (Pipeline.ucRefs τ sig) (B2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the
    boundary after it.  Its arrays are split out of the unscoped buffers and put back at the exit contents; the generator
    register goes into the pipeline's invariant and comes out; nothing is owed; the kernel has no semaphore of its own. -/
def reg1 : Pipeline.RegionSeg (pcfgs (F := F)) adm (pdats m ρ) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Ln lvn 1 fun _ _ => rfl
  pre c := iprop(StableHlo.held (c : Thread nD τ) (Pipeline.ucRefs τ sig) (B3 m ρ c) ∗ Rst c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev msegs : List (Pipeline.Seg (pcfgs (F := F)) adm (pdats m ρ) () defs₀ 𝒱n Ln lvn) :=
  [ .host (hseg hostOps0 hostOps0_sub hostOps0_fresh (B0 m ρ)),
    .region (reg0 m ρ),
    .host (hseg hostOps1 hostOps1_sub hostOps1_fresh (B2 m ρ)),
    .region (reg1 m ρ) ]
theorem main_run (c : Dev nD) : main (F := F) c = Pipeline.Seg.run (msegs m ρ) := (main_chain c).trans (by chain_rfl)

set_option backward.isDefEq.respectTransparency.types false in
/-- Every weakly fair execution of @main from memory `m` with zero counters terminates, nothing faulting, with every
    unscoped buffer of every core at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱n Ln lvn m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rst c)) (Tₙ := Tlast m ρ)
    (hch := ⟨fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c)⟩) (run_all m ρ)

end Cert.Kernel.Frame

end
-- ==== Proof.KIRegion0.lean ====
/-
  Region 0 of @main, the projection call: over a grid of four row blocks the body reads a 512-row block of the
  flattened states, the whole concatenated weight matrix and the whole concatenated bias row, and stores the block's
  product with the weights' transpose plus the bias row broadcast down the rows.  Stated at a parameter `V`, the
  core's buffer contents when the region is entered, and at any float instance: what the body leaves in the output
  block as a function of the three input blocks, the body's triple, the pipeline's proof data and the body obligation.
-/
import proofs.«175412_j6459630814081_1_alg».proof.Proof.Gen.KernelIdeal.Launch
import proofs.«175412_j6459630814081_1_alg».proof.Proof.Gen.KernelIdeal.Skeleton
import proofs.«175412_j6459630814081_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The states' staging buffer holds the point's row block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight matrix at every point, though it is fetched only at the first:
    its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's staging buffer likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev rx0 : Rect S512x768 := Rect.unit (s := S512x768) ![0, 0] S512x768.size inb_S512x768_S512x768_0_0
abbrev rw0 : Rect S1603x768 := Rect.unit (s := S1603x768) ![0, 0] S1603x768.size inb_S1603x768_S1603x768_0_0
abbrev rb0 : Rect S1x1603 := Rect.unit (s := S1x1603) ![0, 0] S1x1603.size inb_S1x1603_S1x1603_0_0
abbrev ro0 : Rect S512x1603 := Rect.unit (s := S512x1603) ![0, 0] S512x1603.size inb_S512x1603_S512x1603_0_0

/-! ## What the body leaves in the output block -/

/-- The output's staging buffer after the body, from the three input blocks: its one store, of the whole block. -/
def out0_3 (x0 : Vec F S512x768 .f32) (x1 : Vec F S1603x768 .f32) (x2 : Vec F S1x1603 .f32) : Vec F S512x1603 .f32 :=
  View.canon [⟨ro0, k0_pay1 (View.ld x0 rx0) (View.ld x1 rw0) (View.ld x2 rb0)⟩]

/-- The one store covers the buffer. -/
theorem cover0_3 (p0 : Vec F S512x1603 .f32) (y : S512x1603.Idx) :
    ∃ pc ∈ ([⟨ro0, p0⟩] : List (View.Piece (Elt F) S512x1603 .f32)), y ∈ pc.1.set :=
  View.cover_of_tiled [⟨ro0, p0⟩] S512x1603.size (by rfl) y

/-! ## The body's triple -/

set_option maxHeartbeats 1000000 in
/-- The body on whole staging memrefs, the inputs' at read contents `x0`, `x1`, `x2` and the output's at anything,
    runs to the continuation holding the inputs' as they were and the output's at `out0_3` of them. -/
theorem sound_kernel0 (c : Dev nD) (E : Set ℕ) (i : grid0.Coords) (arg1 : Memref sig .tc .vmem S512x768 .f32) (harg1 : arg1.IsWhole)
    (arg2 : Memref sig .tc .vmem S1603x768 .f32) (harg2 : arg2.IsWhole) (arg3 : Memref sig .tc .vmem S1x1603 .f32) (harg3 : arg3.IsWhole)
    (arg4 : Memref sig .tc .vmem S512x1603 .f32) (harg4 : arg4.IsWhole)
    (x0 : Vec F S512x768 .f32) (x1 : Vec F S1603x768 .f32) (x2 : Vec F S1x1603 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KIRegion1.lean ====
/-
  Region 1 of @main, the pairwise expansion call: over a grid of batch × row tile × column tile the body reads a
  64-row block of the first projection (rows of tile i), a 64-row block of the second (rows of tile j) and the whole
  bias row, and stores the 64 × 64 × 301 block whose entry (a, b, n) is the first block's row a plus the second's row b
  plus the bias, at lane n.  Stated at a parameter `V`, the core's buffer contents when the region is entered, and at any
  float instance: what the body leaves in the output block as a function of the three input blocks, the body's triple,
  the pipeline's proof data and the body obligation.
-/
import proofs.«175412_j6459630814081_1_alg».proof.Proof.Gen.KernelIdeal.Launch
import proofs.«175412_j6459630814081_1_alg».proof.Proof.Gen.KernelIdeal.Skeleton
import proofs.«175412_j6459630814081_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first projection's staging buffer holds the point's block at every point, fetched there or not: where it is
    not fetched the block index (batch, row tile) has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second projection's staging buffer holds the point's block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the whole row at every point, though it is fetched only at the first. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev rp1 : Rect S1x64x301 := Rect.unit (s := S1x64x301) ![0, 0, 0] S1x64x301.size inb_S1x64x301_S1x64x301_0_0_0
abbrev rb1 : Rect S1x301 := Rect.unit (s := S1x301) ![0, 0] S1x301.size inb_S1x301_S1x301_0_0
abbrev ro1 : Rect S1x64x64x301 := Rect.unit (s := S1x64x64x301) ![0, 0, 0, 0] S1x64x64x301.size inb_S1x64x64x301_S1x64x64x301_0_0_0_0

/-! ## What the body leaves in the output block -/

/-- The output's staging buffer after the body, from the three input blocks: its one store, of the whole block. -/
def out1_3 (x0 : Vec F S1x64x301 .f32) (x1 : Vec F S1x64x301 .f32) (x2 : Vec F S1x301 .f32) : Vec F S1x64x64x301 .f32 :=
  View.canon [⟨ro1, k1_pay1 (View.ld x0 rp1) (View.ld x1 rp1) (View.ld x2 rb1)⟩]

/-- The one store covers the buffer. -/
theorem cover1_3 (p0 : Vec F S1x64x64x301 .f32) (y : S1x64x64x301.Idx) :
    ∃ pc ∈ ([⟨ro1, p0⟩] : List (View.Piece (Elt F) S1x64x64x301 .f32)), y ∈ pc.1.set :=
  View.cover_of_tiled [⟨ro1, p0⟩] S1x64x64x301.size (by rfl) y

/-! ## The body's triple -/

set_option maxHeartbeats 1000000 in
/-- The body on whole staging memrefs, the inputs' at read contents `x0`, `x1`, `x2` and the output's at anything,
    runs to the continuation holding the inputs' as they were and the output's at `out1_3` of them. -/
theorem sound_kernel1 (c : Dev nD) (E : Set ℕ) (i : grid1.Coords) (arg3 : Memref sig .tc .vmem S1x64x301 .f32) (harg3 : arg3.IsWhole)
    (arg4 : Memref sig .tc .vmem S1x64x301 .f32) (harg4 : arg4.IsWhole) (arg5 : Memref sig .tc .vmem S1x301 .f32) (harg5 : arg5.IsWhole)
    (arg6 : Memref sig .tc .vmem S1x64x64x301 .f32) (harg6 : arg6.IsWhole)
    (x0 : Vec F S1x64x301 .f32) (x1 : Vec F S1x64x301 .f32) (x2 : Vec F S1x301 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__bond_kernel i arg3 harg3 arg4 harg4 arg5 harg5 arg6 harg6) K := by
  simp only [cc1__bond_kernel_eq_skeleton]; unfold cc1__bond_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KIRun.lean ====
/-
  The run of @main: a stretch of host operations (flatten the states, concatenate the three weight matrices and the
  three bias rows), the projection call, a second stretch (cut the combined projection into the atom logits and the two
  bond projections, reshape them), the pairwise expansion call.  The buffer contents at each of the five boundaries are
  a fold from the launch memory: a host stretch applies its operations, a region replaces its windows' arrays by what
  its write-backs leave.  Every weakly fair execution terminates with every unscoped buffer at the last boundary's
  contents; the argument arrays, which nothing writes, are there as launched.
-/
import proofs.«175412_j6459630814081_1_alg».proof.Proof.KIRegion0
import proofs.«175412_j6459630814081_1_alg».proof.Proof.KIRegion1
import proofs.«175412_j6459630814081_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the first host stretch: the projection call's entry. -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- At the projection call's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch: the expansion call's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the expansion call's exit. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-! ## A buffer no host operation writes and no region has for an array ends as launched -/

theorem B4_untouched (r : Ref sig .tc) (h0 : r ∉ hostOps0_W) (h1 : r ∉ hostOps1_W)
    (ha0 : ∀ w, Pipeline.arrRef spec0 w ≠ r) (ha1 : ∀ w, Pipeline.arrRef spec1 w ≠ r) (c : Dev nD) :
    B4 m ρ c (Proc.devRef .tc r) = m ((c : Thread nD τ).loc r) :=
  calc B4 m ρ c (Proc.devRef .tc r)
    _ = B3 m ρ c (Proc.devRef .tc r) := B4_of_ne m ρ c r ha1
    _ = B2 m ρ c (Proc.devRef .tc r) := StableHlo.after_of_writes_sub hostOps1 _ hostOps1_writes h1
    _ = B1 m ρ c (Proc.devRef .tc r) := B2_of_ne m ρ c r ha0
    _ = B0 m ρ c (Proc.devRef .tc r) := StableHlo.after_of_writes_sub hostOps0 _ hostOps0_writes h0
    _ = m ((c : Thread nD τ).loc r) := rfl

theorem B4_main_arg0 (c : Dev nD) : B4 m ρ c (Proc.devRef .tc main_arg0) = m ((c : Thread nD τ).loc main_arg0) :=
  B4_untouched m ρ main_arg0 (by decide) (by decide) (by decide) (by decide) c
theorem B4_main_arg1 (c : Dev nD) : B4 m ρ c (Proc.devRef .tc main_arg1) = m ((c : Thread nD τ).loc main_arg1) :=
  B4_untouched m ρ main_arg1 (by decide) (by decide) (by decide) (by decide) c
theorem B4_main_arg2 (c : Dev nD) : B4 m ρ c (Proc.devRef .tc main_arg2) = m ((c : Thread nD τ).loc main_arg2) :=
  B4_untouched m ρ main_arg2 (by decide) (by decide) (by decide) (by decide) c
theorem B4_main_arg3 (c : Dev nD) : B4 m ρ c (Proc.devRef .tc main_arg3) = m ((c : Thread nD τ).loc main_arg3) :=
  B4_untouched m ρ main_arg3 (by decide) (by decide) (by decide) (by decide) c
theorem B4_main_arg4 (c : Dev nD) : B4 m ρ c (Proc.devRef .tc main_arg4) = m ((c : Thread nD τ).loc main_arg4) :=
  B4_untouched m ρ main_arg4 (by decide) (by decide) (by decide) (by decide) c

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱n : Variants := Variants.none
/-- No core owes another anything: no level is assigned. -/
abbrev Ln : GSem nD τ sig → Finset Unit := fun _ => ∅
abbrev lvn : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tlast (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- Region 0 over the thread state: entered from every unscoped buffer at the boundary before it, left at the
    boundary after it.  Its arrays are split out of the unscoped buffers and put back at the exit contents; the generator
    register goes into the pipeline's invariant and comes out; nothing is owed; the kernel has no semaphore of its own. -/
def reg0 : Pipeline.RegionSeg (pcfgs (F := F)) adm (pdats m ρ) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Ln lvn 0 fun _ _ => rfl
  pre c := iprop(StableHlo.held (c : Thread nD τ) (Pipeline.ucRefs τ sig) (B1 m ρ c) ∗ Rst c)
  post c := iprop(StableHlo.held (c : Thread nD τ) (Pipeline.ucRefs τ sig) (B2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the
    boundary after it.  Its arrays are split out of the unscoped buffers and put back at the exit contents; the generator
    register goes into the pipeline's invariant and comes out; nothing is owed; the kernel has no semaphore of its own. -/
def reg1 : Pipeline.RegionSeg (pcfgs (F := F)) adm (pdats m ρ) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Ln lvn 1 fun _ _ => rfl
  pre c := iprop(StableHlo.held (c : Thread nD τ) (Pipeline.ucRefs τ sig) (B3 m ρ c) ∗ Rst c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev msegs : List (Pipeline.Seg (pcfgs (F := F)) adm (pdats m ρ) () defs₀ 𝒱n Ln lvn) :=
  [ .host (hseg hostOps0 hostOps0_sub hostOps0_fresh (B0 m ρ)),
    .region (reg0 m ρ),
    .host (hseg hostOps1 hostOps1_sub hostOps1_fresh (B2 m ρ)),
    .region (reg1 m ρ) ]
theorem main_run (c : Dev nD) : main (F := F) c = Pipeline.Seg.run (msegs m ρ) := (main_chain c).trans (by chain_rfl)

set_option backward.isDefEq.respectTransparency.types false in
/-- Every weakly fair execution of @main from memory `m` with zero counters terminates, nothing faulting, with every
    unscoped buffer of every core at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱n Ln lvn m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rst c)) (Tₙ := Tlast m ρ)
    (hch := ⟨fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c)⟩) (run_all m ρ)

end Cert.KernelIdeal.Frame

end
-- ==== Proof.KIBlocks0.lean ====
/-
  The projection call's output block read at an entry, on the extended reals: entry (r, n) of what the body stores is
  the sum over k of the states block's (r, k) times the weight matrix's (n, k), plus the bias row's lane n.  The two
  changes of float format in the body are the identity there, and the product into a zero accumulator is the plain sum.
-/
import proofs.«175412_j6459630814081_1_alg».proof.Proof.KIRegion0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Frame

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Both coordinates of a whole-buffer access's offset are zero. -/
theorem zero_offsets : (![0, 0] : Fin 2 → Nat) = fun _ => 0 :=
  funext fun a => by match a with | ⟨0, _⟩ => rfl | ⟨1, _⟩ => rfl

/-! ## The product's operand indices

The product contracts axis 1 of the states block against axis 1 of the weight matrix: at output entry (r, n) and
contraction index k its left factor is the states' entry (r, k) and its right factor the weights' entry (n, k). -/

/-- The left operand's row is the output's row. -/
theorem proj_lhs_0 (i : S512x1603.Idx) (q : dot_S512x768_S1603x768_S512x1603_1_1_0_0_n_n.contr.Idx) :
    (dot_S512x768_S1603x768_S512x1603_1_1_0_0_n_n.lhsIdx i q 0).val = (i 0).val := by
  unfold DotDims.lhsIdx
  rw [dif_neg (show ¬(0 : Fin S512x768.rank) ∈ dot_S512x768_S1603x768_S512x1603_1_1_0_0_n_n.lhsBatch by decide), dif_pos (show (0 : Fin S512x768.rank) ∈ dot_S512x768_S1603x768_S512x1603_1_1_0_0_n_n.lhsNonContracting by decide)]
  rfl
/-- The left operand's column is the contraction index. -/
theorem proj_lhs_1 (i : S512x1603.Idx) (q : dot_S512x768_S1603x768_S512x1603_1_1_0_0_n_n.contr.Idx) :
    (dot_S512x768_S1603x768_S512x1603_1_1_0_0_n_n.lhsIdx i q 1).val = (q ⟨0, by decide⟩).val :=
  dot_S512x768_S1603x768_S512x1603_1_1_0_0_n_n.lhsIdx_val_of_single rfl i q
/-- The right operand's row is the output's column. -/
theorem proj_rhs_0 (i : S512x1603.Idx) (q : dot_S512x768_S1603x768_S512x1603_1_1_0_0_n_n.contr.Idx) :
    (dot_S512x768_S1603x768_S512x1603_1_1_0_0_n_n.rhsIdx i q 0).val = (i 1).val := by
  unfold DotDims.rhsIdx
  rw [dif_neg (show ¬(0 : Fin S1603x768.rank) ∈ dot_S512x768_S1603x768_S512x1603_1_1_0_0_n_n.rhsBatch by decide), dif_pos (show (0 : Fin S1603x768.rank) ∈ dot_S512x768_S1603x768_S512x1603_1_1_0_0_n_n.rhsNonContracting by decide)]
  rfl
/-- The right operand's column is the contraction index. -/
theorem proj_rhs_1 (i : S512x1603.Idx) (q : dot_S512x768_S1603x768_S512x1603_1_1_0_0_n_n.contr.Idx) :
    (dot_S512x768_S1603x768_S512x1603_1_1_0_0_n_n.rhsIdx i q 1).val = (q ⟨0, by decide⟩).val :=
  dot_S512x768_S1603x768_S512x1603_1_1_0_0_n_n.rhsIdx_val_of_single rfl i q

/-- The product into a zero accumulator at entry (r, n): the sum over the 768 contraction indices k of the left
    operand's (r, k) times the right operand's (n, k); the one-axis contraction index is its coordinate. -/
theorem proj_matmul_apply (a : FVec Ideal S512x768 .bf16) (b : FVec Ideal S1603x768 .bf16) (r : Fin 512) (n : Fin 1603) :
    matmul (F := Ideal) dot_S512x768_S1603x768_S512x1603_1_1_0_0_n_n none a b (constant (F := Ideal) S512x1603 .f32 0x00000000#32) (ix2 r n)
      = ∑ k : Fin 768, a (ix2 r k) * b (ix2 n k) := by
  simp only [matmul]
  rw [Ideal.matmul_constant_zero_apply, ← Equiv.sum_comp (contrEquiv1 dot_S512x768_S1603x768_S512x1603_1_1_0_0_n_n 768 rfl rfl).symm]
  refine Finset.sum_congr rfl fun k _ => ?_
  have hk := contrEquiv1_symm_val dot_S512x768_S1603x768_S512x1603_1_1_0_0_n_n 768 rfl rfl k
  have el : dot_S512x768_S1603x768_S512x1603_1_1_0_0_n_n.lhsIdx (ix2 r n) ((contrEquiv1 dot_S512x768_S1603x768_S512x1603_1_1_0_0_n_n 768 rfl rfl).symm k) = ix2 r k := funext fun a => Fin.ext (by
    match a with
    | ⟨0, _⟩ => exact proj_lhs_0 _ _
    | ⟨1, _⟩ => exact (proj_lhs_1 _ _).trans hk)
  have er : dot_S512x768_S1603x768_S512x1603_1_1_0_0_n_n.rhsIdx (ix2 r n) ((contrEquiv1 dot_S512x768_S1603x768_S512x1603_1_1_0_0_n_n 768 rfl rfl).symm k) = ix2 n k := funext fun a => Fin.ext (by
    match a with
    | ⟨0, _⟩ => exact proj_rhs_0 _ _
    | ⟨1, _⟩ => exact (proj_rhs_1 _ _).trans hk)
  rw [el, er]

/-! ## The stored block at an entry -/

/-- Entry (r, n) of the block the projection body stores. -/
theorem out0_3_apply (x0 : Vec Ideal S512x768 .f32) (x1 : Vec Ideal S1603x768 .f32) (x2 : Vec Ideal S1x1603 .f32)
    (r : Fin 512) (n : Fin 1603) :
    out0_3 (F := Ideal) x0 x1 x2 (ix2 r n)
      = (∑ k : Fin 768, x0 (ix2 r k) * x1 (ix2 n k)) + x2 (ix2 (0 : Fin 1) n) := by
  -- the one store is of the whole block and each load reads its whole buffer
  unfold out0_3
  rw [View.canon_unit_zero zero_offsets]
  simp only [View.ld_unit_zero (S := S512x768) zero_offsets, View.ld_unit_zero (S := S1603x768) zero_offsets, View.ld_unit_zero (S := S1x1603) zero_offsets]
  unfold k0_pay1
  -- the stored value is the product plus the broadcast bias row, entry by entry
  refine (addf_apply _ _ _).trans ?_
  refine congrArg₂ (· + ·) ?_ ?_
  · -- the product's operands are the two loaded blocks themselves: a cast to the same shape and a change of
    -- float format are both the identity on the extended reals
    refine (proj_matmul_apply _ _ r n).trans ?_
    refine Finset.sum_congr rfl fun k _ => ?_
    rw [shapeCast_self, shapeCast_self]
    rfl
  · -- the bias row is broadcast down the rows: entry (r, n) reads its lane n on the one row 0
    rw [shapeCast_self]
    exact broadcastTo_apply x2 broadcasts_S1x1603_S512x1603 (ix2 r n) (ix2 (0 : Fin 1) n) (fun a => match a with
      | ⟨0, _⟩ => by show 0 = if (1 : Nat) = 1 then 0 else r.val; rw [if_pos rfl]
      | ⟨1, _⟩ => by show n.val = if (1603 : Nat) = 1 then 0 else n.val; rw [if_neg (by decide)])

end Cert.KernelIdeal.Frame

end
-- ==== Proof.KIFinal0.lean ====
/-
  The projection call's output array after the region, as one function of the three arrays it read: the four row blocks
  tile the 2048 rows, and block t's entry (r, n) is row 512·t + r of the whole-array function.
-/
import proofs.«175412_j6459630814081_1_alg».proof.Proof.KIBlocks0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Frame

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The combined projection: every flattened token row against every row of the concatenated weight, plus the
    concatenated bias. -/
def proj (X : Vec Ideal S2048x768 .f32) (Wc : Vec Ideal S1603x768 .f32) (bc : Vec Ideal S1x1603 .f32) : Vec Ideal S2048x1603 .f32 :=
  fun j => (∑ k : Fin 768, X (ix2 (j 0) k) * Wc (ix2 (j 1) k)) + bc (ix2 (0 : Fin 1) (j 1))

/-! ## The index maps, decided over the four points -/

/-- The states' row block moves with the output's; the weights and the bias stay at block (0, 0); the output's blocks
    run down the rows only, through block rows 0 to 3. -/
theorem index_facts0 : ∀ t : Fin cfg0.N,
    win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0
    ∧ win0_3.index t (0 : Fin 2) ≤ 3 :=
  (by decide +kernel : ∀ t : Fin grid0.N, _)

/-- Every block row of the output is some point's. -/
theorem index_onto0 : ∀ q : Fin 4, ∃ t : Fin cfg0.N, win0_3.index t = ![q.val, 0] :=
  (by decide +kernel : ∀ q : Fin 4, ∃ t : Fin grid0.N, win0_3.index t = ![q.val, 0])

/-! ## One entry of a row block -/

/-- Entry (r, n) of the stored block is entry (R, N) of `proj` when the states block's row r is the array's row R, the
    weight block's row n is the weights' row N and the bias block's lane n is the bias's lane N: the two sums agree
    term by term. -/
theorem block_entry0 (X : Vec Ideal S2048x768 .f32) (Wc : Vec Ideal S1603x768 .f32) (bc : Vec Ideal S1x1603 .f32)
    (x0 : Vec Ideal S512x768 .f32) (x1 : Vec Ideal S1603x768 .f32) (x2 : Vec Ideal S1x1603 .f32)
    (r : Fin 512) (n : Fin 1603) (R : Fin 2048) (N : Fin 1603)
    (h0 : ∀ k : Fin 768, x0 (ix2 r k) = X (ix2 R k))
    (h1 : ∀ k : Fin 768, x1 (ix2 n k) = Wc (ix2 N k))
    (h2 : x2 (ix2 (0 : Fin 1) n) = bc (ix2 (0 : Fin 1) N)) :
    out0_3 (F := Ideal) x0 x1 x2 (ix2 r n) = proj X Wc bc (ix2 R N) := by
  rw [out0_3_apply, h2]
  show _ = (∑ k : Fin 768, X (ix2 R k) * Wc (ix2 N k)) + bc (ix2 (0 : Fin 1) N)
  congr 1
  exact Finset.sum_congr rfl fun k _ => by rw [h0 k, h1 k]

/-! ## The input blocks at a point, read in their arrays -/

section Blocks0
variable (V : (c : Dev nD) → (b : Ref sig .tc) → Buf (Elt Ideal) ((c : Thread nD τ).loc b)) (c : Dev nD) (t : Fin cfg0.N)

/-- Row r of the states block at point t is row 512·(the output's block row) + r of the flattened states. -/
theorem states_block0_apply (r : Fin 512) (k : Fin 768) (R : Fin 2048)
    (hR : R.val = win0_3.index t (0 : Fin 2) * 512 + r.val) :
    (iblk0 (F := Ideal) V c 0 t : Vec Ideal S512x768 .f32) (ix2 r k) = (V c main_v0 : Vec Ideal S2048x768 .f32) (ix2 R k) := by
  obtain ⟨e0, e1, -⟩ := index_facts0 t
  unfold iblk0
  rw [View.read_apply]
  show V c main_v0 _ = V c main_v0 _
  congr 1
  funext a
  apply Fin.ext
  match a with
  | ⟨0, _⟩ => show win0_0.index t (0 : Fin 2) * 512 + 1 * r.val = R.val; omega
  | ⟨1, _⟩ => show win0_0.index t (1 : Fin 2) * 768 + 1 * k.val = k.val; omega

/-- The weight block at every point is the whole weight matrix. -/
theorem weights_block0_apply (n : Fin 1603) (k : Fin 768) :
    (iblk0 (F := Ideal) V c 1 t : Vec Ideal S1603x768 .f32) (ix2 n k) = (V c main_v3 : Vec Ideal S1603x768 .f32) (ix2 n k) := by
  obtain ⟨-, -, e2, e3, -⟩ := index_facts0 t
  unfold iblk0
  rw [View.read_apply]
  show V c main_v3 _ = V c main_v3 _
  congr 1
  funext a
  apply Fin.ext
  match a with
  | ⟨0, _⟩ => show win0_1.index t (0 : Fin 2) * 1603 + 1 * n.val = n.val; omega
  | ⟨1, _⟩ => show win0_1.index t (1 : Fin 2) * 768 + 1 * k.val = k.val; omega

/-- The bias block at every point is the whole bias row. -/
theorem bias_block0_apply (n : Fin 1603) :
    (iblk0 (F := Ideal) V c 2 t : Vec Ideal S1x1603 .f32) (ix2 (0 : Fin 1) n) = (V c main_v7 : Vec Ideal S1x1603 .f32) (ix2 (0 : Fin 1) n) := by
  obtain ⟨-, -, -, -, e4, e5, -⟩ := index_facts0 t
  unfold iblk0
  rw [View.read_apply]
  show V c main_v7 _ = V c main_v7 _
  congr 1
  funext a
  apply Fin.ext
  match a with
  | ⟨0, _⟩ => show win0_2.index t (0 : Fin 2) * 1 + 1 * (0 : Fin 1).val = (0 : Fin 1).val; omega
  | ⟨1, _⟩ => show win0_2.index t (1 : Fin 2) * 1603 + 1 * n.val = n.val; omega

/-! ## What a point writes back -/

/-- Point t writes back block t of `proj` of the three arrays as the region finds them. -/
theorem flushed0_3_proj :
    (dat0 (F := Ideal) V c).flushed 3 t
      = ((cfg0.win 3).blk t).view.read (Elt Ideal) (proj (V c main_v0) (V c main_v3) (V c main_v7)) := by
  show (cfg0.win 3).cut (grid0.coords t) ((dat0 (F := Ideal) V c).after 3 t) = _
  rw [after0_3]
  obtain ⟨-, -, -, -, -, -, e6, e7⟩ := index_facts0 t
  funext j
  have hr : (j 0).val < 512 := (j 0).isLt
  have hn : (j 1).val < 1603 := (j 1).isLt
  -- the block's index by its two coordinates,
  have hj : (cfg0.win 3).xinj (grid0.coords t) j = ix2 (n0 := 512) (n1 := 1603) (j 0) (j 1) := by
    funext a
    match a with
    | ⟨0, _⟩ => rfl
    | ⟨1, _⟩ => rfl
  -- and where it sits in the array: row 512·(block row) + r, lane n
  have hJ : ((cfg0.win 3).blk t).view.emb j
      = ix2 (n0 := 2048) (n1 := 1603) ⟨win0_3.index t (0 : Fin 2) * 512 + (j 0).val, by omega⟩ (j 1) := by
    funext a
    apply Fin.ext
    match a with
    | ⟨0, _⟩ => show win0_3.index t (0 : Fin 2) * 512 + 1 * (j 0).val = win0_3.index t (0 : Fin 2) * 512 + (j 0).val; omega
    | ⟨1, _⟩ => show win0_3.index t (1 : Fin 2) * 1603 + 1 * (j 1).val = (j 1).val; omega
  refine (congrArg (out0_3 (F := Ideal) (iblk0 V c 0 t) (iblk0 V c 1 t) (iblk0 V c 2 t)) hj).trans ?_
  refine Eq.trans ?_ (congrArg (proj (V c main_v0) (V c main_v3) (V c main_v7)) hJ).symm
  exact block_entry0 _ _ _ _ _ _ (j 0) (j 1) _ (j 1)
    (fun k => states_block0_apply V c t (j 0) k _ rfl)
    (fun k => weights_block0_apply V c t (j 1) k)
    (bias_block0_apply V c t (j 1))

end Blocks0

/-! ## The four row blocks tile the array -/

/-- An index of the output array is in point t's block iff each coordinate is in the block's range on its axis. -/
theorem mem_block0_3 (t : Fin cfg0.N) (i : S2048x1603.Idx) :
    i ∈ ((cfg0.win 3).blk t).view.set ↔ ∀ a : Fin 2, win0_3.index t a * S512x1603.size a ≤ (i a).val
      ∧ (i a).val < win0_3.index t a * S512x1603.size a + S512x1603.size a := by
  show i ∈ ((View.whole main_v8).slice (win0_3.rect t)).set ↔ _
  rw [View.set_slice_whole, Rect.mem_set_unit]
  exact Iff.rfl

/-- Row R of the output is in the block of the point whose block row is R / 512; every lane is in every block. -/
theorem covered0_3 (i : S2048x1603.Idx) :
    ∃ t : Fin cfg0.N, (cfg0.win 3).flush t = true ∧ i ∈ ((cfg0.win 3).blk t).view.set := by
  have hi0 : (i 0).val < 2048 := (i 0).isLt
  have hi1 : (i 1).val < 1603 := (i 1).isLt
  obtain ⟨t, ht⟩ := index_onto0 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_block0_3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1603 ≤ (i 1).val ∧ (i 1).val < win0_3.index t (1 : Fin 2) * 1603 + 1603; omega

/-- After the projection region its output array holds `proj` of the three arrays the region was entered with. -/
theorem final0 (V : (c : Dev nD) → (b : Ref sig .tc) → Buf (Elt Ideal) ((c : Thread nD τ).loc b)) (c : Dev nD) :
    (dat0 (F := Ideal) V c).arrAt 3 cfg0.N = proj (V c main_v0) (V c main_v3) (V c main_v7) := by
  exact (dat0 (F := Ideal) V c).arrAt_eq_of_cover 3 (proj (V c main_v0) (V c main_v3) (V c main_v7))
    (fun t _ => flushed0_3_proj V c t) covered0_3

end Cert.KernelIdeal.Frame

end
-- ==== Proof.KIBlocks1.lean ====
/-
  The expansion call's output block read at an entry, on the extended reals: entry (a, b, n) of what the body stores is
  the first projection block's (a, n) plus the second's (b, n), plus the bias row's lane n.
-/
import proofs.«175412_j6459630814081_1_alg».proof.Proof.KIRegion1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Frame

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## Unit axes put in by a shape cast: the flat position does not move -/

/-- An `[a, b]` array cast to `[a, 1, b]` reads, at `(i, u, j)`, the operand at `(i, j)`: both sit at row-major
    position `i * b + j`, the unit coordinate `u` being `0`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to `[1, 1, a]` reads, at `(u, w, i)`, the operand at `i`: both sit at row-major position
    `i`, the two unit coordinates being `0`. -/
theorem shapeCast_a_11a_apply {α : Type} {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    rw [hu, hw, Nat.zero_mul, Nat.zero_add])

/-! ## The three broadcasts to `[64, 64, 301]`: coordinate `0` on each unit axis of the operand -/

/-- A `[64, 1, 301]` array broadcast along its middle axis reads, at `(i, k, j)`, the operand at `(i, 0, j)`. -/
theorem broadcastTo_64x1x301_apply {α : Type} (x : S64x1x301.Idx → α) (h : S64x1x301.Broadcasts S64x64x301)
    (i k : Fin 64) (j : Fin 301) :
    broadcastTo S64x64x301 x h (ix3 i k j) = x (ix3 i (0 : Fin 1) j) :=
  broadcastTo_apply x h _ _ fun c => match c with | ⟨0, _⟩ => rfl | ⟨1, _⟩ => rfl | ⟨2, _⟩ => rfl

/-- A `[1, 64, 301]` array broadcast along its leading axis reads, at `(i, k, j)`, the operand at `(0, k, j)`. -/
theorem broadcastTo_1x64x301_apply {α : Type} (x : S1x64x301.Idx → α) (h : S1x64x301.Broadcasts S64x64x301)
    (i k : Fin 64) (j : Fin 301) :
    broadcastTo S64x64x301 x h (ix3 i k j) = x (ix3 (0 : Fin 1) k j) :=
  broadcastTo_apply x h _ _ fun c => match c with | ⟨0, _⟩ => rfl | ⟨1, _⟩ => rfl | ⟨2, _⟩ => rfl

/-- A `[1, 1, 301]` row broadcast along both leading axes reads, at `(i, k, j)`, the operand at `(0, 0, j)`. -/
theorem broadcastTo_1x1x301_apply {α : Type} (x : S1x1x301.Idx → α) (h : S1x1x301.Broadcasts S64x64x301)
    (i k : Fin 64) (j : Fin 301) :
    broadcastTo S64x64x301 x h (ix3 i k j) = x (ix3 (0 : Fin 1) (0 : Fin 1) j) :=
  broadcastTo_apply x h _ _ fun c => match c with | ⟨0, _⟩ => rfl | ⟨1, _⟩ => rfl | ⟨2, _⟩ => rfl

/-! ## The three operands of the sum at an entry -/

/-- The first projection block with its rows spread along the second row axis: entry `(a, b, n)` is the block's
    `(0, a, n)`, whatever `b`. -/
theorem rowOperand_apply {α : Type} (x : S1x64x301.Idx → α) (a b : Fin 64) (n : Fin 301) :
    broadcastTo S64x64x301
        (shapeCast S64x1x301 (shapeCast S64x301 x shapeCasts_S1x64x301_S64x301) shapeCasts_S64x301_S64x1x301)
        broadcasts_S64x1x301_S64x64x301 (ix3 a b n)
      = x (ix3 (0 : Fin 1) a n) :=
  (broadcastTo_64x1x301_apply _ _ a b n).trans
    ((shapeCast_ab_a1b_apply _ _ a (0 : Fin 1) n).trans (shapeCast_1ab_ab_apply x _ a n))

/-- The second projection block with its rows spread along the first row axis: entry `(a, b, n)` is the block's
    `(0, b, n)`, whatever `a`. -/
theorem colOperand_apply {α : Type} (x : S1x64x301.Idx → α) (a b : Fin 64) (n : Fin 301) :
    broadcastTo S64x64x301
        (shapeCast S1x64x301 (shapeCast S64x301 x shapeCasts_S1x64x301_S64x301) shapeCasts_S64x301_S1x64x301)
        broadcasts_S1x64x301_S64x64x301 (ix3 a b n)
      = x (ix3 (0 : Fin 1) b n) :=
  (broadcastTo_1x64x301_apply _ _ a b n).trans
    ((shapeCast_ab_1ab_apply _ _ (0 : Fin 1) b n).trans (shapeCast_1ab_ab_apply x _ b n))

/-- The bias row spread along both row axes: entry `(a, b, n)` is the row's lane `n`, whatever `a` and `b`. -/
theorem biasOperand_apply {α : Type} (x : S1x301.Idx → α) (a b : Fin 64) (n : Fin 301) :
    broadcastTo S64x64x301
        (shapeCast S1x1x301 (shapeCast S301 (shapeCast S1x301 x shapeCasts_S1x301_S1x301) shapeCasts_S1x301_S301)
          shapeCasts_S301_S1x1x301)
        broadcasts_S1x1x301_S64x64x301 (ix3 a b n)
      = x (ix2 (0 : Fin 1) n) :=
  (broadcastTo_1x1x301_apply _ _ a b n).trans
    ((shapeCast_a_11a_apply _ _ (0 : Fin 1) (0 : Fin 1) n).trans
      ((shapeCast_1a_a_apply _ _ n).trans (congrFun (shapeCast_self x shapeCasts_S1x301_S1x301) _)))

/-! ## The stored block at an entry -/

/-- The zero offset on two axes is the constant zero. -/
theorem hz1_2 : (![0, 0] : Fin 2 → Nat) = fun _ => 0 := funext fun a => by fin_cases a <;> rfl
/-- The zero offset on three axes is the constant zero. -/
theorem hz1_3 : (![0, 0, 0] : Fin 3 → Nat) = fun _ => 0 := funext fun a => by fin_cases a <;> rfl
/-- The zero offset on four axes is the constant zero. -/
theorem hz1_4 : (![0, 0, 0, 0] : Fin 4 → Nat) = fun _ => 0 := funext fun a => by fin_cases a <;> rfl

/-- Entry (a, b, n) of the block the expansion body stores. -/
theorem out1_3_apply (x0 x1 : Vec Ideal S1x64x301 .f32) (x2 : Vec Ideal S1x301 .f32) (a b : Fin 64) (n : Fin 301) :
    out1_3 (F := Ideal) x0 x1 x2 (ix4 (0 : Fin 1) a b n)
      = (x0 (ix3 (0 : Fin 1) a n) + x1 (ix3 (0 : Fin 1) b n)) + x2 (ix2 (0 : Fin 1) n) := by
  unfold out1_3
  -- the one store is of the whole block, and each load is of the whole of its block
  rw [View.canon_unit_zero hz1_4]
  simp only [View.ld_unit_zero (S := S1x64x301) hz1_3, View.ld_unit_zero (S := S1x301) hz1_2]
  unfold k1_pay1
  -- the leading unit axis of the stored block does not move the entry
  refine (shapeCast_abc_1abc_apply _ shapeCasts_S64x64x301_S1x64x64x301 (0 : Fin 1) a b n).trans ?_
  -- the two sums are entrywise; each operand reads its own block
  exact congrArg₂ (· + ·)
    (congrArg₂ (· + ·) (rowOperand_apply x0 a b n) (colOperand_apply x1 a b n))
    (biasOperand_apply x2 a b n)

end Cert.KernelIdeal.Frame

end
-- ==== Proof.KIFinal1.lean ====
/-
  The expansion call's output array after the region, as one function of the three arrays it read: the 8 × 4 × 4 blocks
  tile batch × rows × columns, and block (b, ti, tj)'s entry (a, b', n) is entry (b, 64·ti + a, 64·tj + b', n) of the
  whole-array function.
-/
import proofs.«175412_j6459630814081_1_alg».proof.Proof.KIBlocks1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Frame

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The pairwise sum: row i of the first projection plus row j of the second plus the bias, lane by lane. -/
def pairsum (P1 P2 : Vec Ideal S8x256x301 .f32) (bb : Vec Ideal S1x301 .f32) : Vec Ideal S8x256x256x301 .f32 :=
  fun j => (P1 (ix3 (j 0) (j 1) (j 3)) + P2 (ix3 (j 0) (j 2) (j 3))) + bb (ix2 (0 : Fin 1) (j 3))

section

variable (V : (c : Dev nD) → (b : Ref sig .tc) → Buf (Elt Ideal) ((c : Thread nD τ).loc b))

/-! ## Where each window's block sits, decided once over the 128 grid points -/

/-- The output's block index at a point is (batch, row tile, column tile, 0), inside 8 × 4 × 4. -/
theorem out_index_range1 : ∀ t : Fin cfg1.N, win1_3.index t (0 : Fin 4) ≤ 7 ∧ win1_3.index t (1 : Fin 4) ≤ 3
    ∧ win1_3.index t (2 : Fin 4) ≤ 3 ∧ win1_3.index t (3 : Fin 4) = 0 :=
  (by decide +kernel : ∀ t : Fin grid1.N, _)

/-- The first projection's block moves with the output's batch and row tile. -/
theorem proj1_index1 : ∀ t : Fin cfg1.N, win1_0.index t (0 : Fin 3) = win1_3.index t (0 : Fin 4)
    ∧ win1_0.index t (1 : Fin 3) = win1_3.index t (1 : Fin 4) ∧ win1_0.index t (2 : Fin 3) = 0 :=
  (by decide +kernel : ∀ t : Fin grid1.N, _)

/-- The second projection's block moves with the output's batch and column tile. -/
theorem proj2_index1 : ∀ t : Fin cfg1.N, win1_1.index t (0 : Fin 3) = win1_3.index t (0 : Fin 4)
    ∧ win1_1.index t (1 : Fin 3) = win1_3.index t (2 : Fin 4) ∧ win1_1.index t (2 : Fin 3) = 0 :=
  (by decide +kernel : ∀ t : Fin grid1.N, _)

/-- The bias row's block is the whole row at every point. -/
theorem bias_index1 : ∀ t : Fin cfg1.N, win1_2.index t (0 : Fin 2) = 0 ∧ win1_2.index t (1 : Fin 2) = 0 :=
  (by decide +kernel : ∀ t : Fin grid1.N, _)

/-- Every (batch, row tile, column tile) of 8 × 4 × 4 is some point's output block index. -/
theorem out_index_onto1 : ∀ (q0 : Fin 8) (q1 : Fin 4) (q2 : Fin 4), ∃ t : Fin cfg1.N, win1_3.index t = ![q0.val, q1.val, q2.val, 0] :=
  (by decide +kernel : ∀ (q0 : Fin 8) (q1 : Fin 4) (q2 : Fin 4), ∃ t : Fin grid1.N, win1_3.index t = ![q0.val, q1.val, q2.val, 0])

/-! ## Each input block's entry as an entry of its array -/

/-- Entry (0, a, n) of the first projection's block is the array's entry at batch = block batch, row = 64 · row tile + a,
    lane n. -/
theorem blk1_proj1 (c : Dev nD) (t : Fin cfg1.N) (a : Fin 64) (n : Fin 301) (k : S8x256x301.Idx)
    (hk0 : (k 0).val = win1_0.index t (0 : Fin 3)) (hk1 : (k 1).val = win1_0.index t (1 : Fin 3) * 64 + a.val)
    (hk2 : (k 2).val = win1_0.index t (2 : Fin 3) * 301 + n.val) :
    (iblk1 V c 0 t : Vec Ideal S1x64x301 .f32) (ix3 (0 : Fin 1) a n) = (V c main_v12 : S8x256x301.Idx → Elt Ideal .f32) k := by
  unfold iblk1
  rw [View.read_apply]
  show V c main_v12 _ = V c main_v12 _
  congr 1
  funext d
  apply Fin.ext
  match d with
  | ⟨0, _⟩ => show win1_0.index t (0 : Fin 3) * 1 + 1 * 0 = (k 0).val; omega
  | ⟨1, _⟩ => show win1_0.index t (1 : Fin 3) * 64 + 1 * a.val = (k 1).val; omega
  | ⟨2, _⟩ => show win1_0.index t (2 : Fin 3) * 301 + 1 * n.val = (k 2).val; omega

/-- Entry (0, b, n) of the second projection's block is the array's entry at batch = block batch, row = 64 · column tile + b,
    lane n. -/
theorem blk1_proj2 (c : Dev nD) (t : Fin cfg1.N) (b : Fin 64) (n : Fin 301) (k : S8x256x301.Idx)
    (hk0 : (k 0).val = win1_1.index t (0 : Fin 3)) (hk1 : (k 1).val = win1_1.index t (1 : Fin 3) * 64 + b.val)
    (hk2 : (k 2).val = win1_1.index t (2 : Fin 3) * 301 + n.val) :
    (iblk1 V c 1 t : Vec Ideal S1x64x301 .f32) (ix3 (0 : Fin 1) b n) = (V c main_v14 : S8x256x301.Idx → Elt Ideal .f32) k := by
  unfold iblk1
  rw [View.read_apply]
  show V c main_v14 _ = V c main_v14 _
  congr 1
  funext d
  apply Fin.ext
  match d with
  | ⟨0, _⟩ => show win1_1.index t (0 : Fin 3) * 1 + 1 * 0 = (k 0).val; omega
  | ⟨1, _⟩ => show win1_1.index t (1 : Fin 3) * 64 + 1 * b.val = (k 1).val; omega
  | ⟨2, _⟩ => show win1_1.index t (2 : Fin 3) * 301 + 1 * n.val = (k 2).val; omega

/-- Entry (0, n) of the bias block is the bias row's lane n. -/
theorem blk1_bias (c : Dev nD) (t : Fin cfg1.N) (n : Fin 301) (k : S1x301.Idx)
    (hk0 : (k 0).val = win1_2.index t (0 : Fin 2)) (hk1 : (k 1).val = win1_2.index t (1 : Fin 2) * 301 + n.val) :
    (iblk1 V c 2 t : Vec Ideal S1x301 .f32) (ix2 (0 : Fin 1) n) = (V c main_v15 : S1x301.Idx → Elt Ideal .f32) k := by
  unfold iblk1
  rw [View.read_apply]
  show V c main_v15 _ = V c main_v15 _
  congr 1
  funext d
  apply Fin.ext
  match d with
  | ⟨0, _⟩ => show win1_2.index t (0 : Fin 2) * 1 + 1 * 0 = (k 0).val; omega
  | ⟨1, _⟩ => show win1_2.index t (1 : Fin 2) * 301 + 1 * n.val = (k 1).val; omega

/-! ## What a point writes back -/

/-- Entry (0, a, b, n) of what point `t` leaves in the output block is `pairsum` at the array entry under it:
    batch = block batch, row = 64 · row tile + a, column = 64 · column tile + b, lane n. -/
theorem out_entry1 (c : Dev nD) (t : Fin cfg1.N) (a b : Fin 64) (n : Fin 301) (i : S8x256x256x301.Idx)
    (h0 : (i 0).val = win1_3.index t (0 : Fin 4)) (h1 : (i 1).val = win1_3.index t (1 : Fin 4) * 64 + a.val)
    (h2 : (i 2).val = win1_3.index t (2 : Fin 4) * 64 + b.val) (h3 : (i 3).val = n.val) :
    out1_3 (F := Ideal) (iblk1 V c 0 t) (iblk1 V c 1 t) (iblk1 V c 2 t) (ix4 (0 : Fin 1) a b n)
      = pairsum (V c main_v12) (V c main_v14) (V c main_v15) i := by
  obtain ⟨p0, p1, p2⟩ := proj1_index1 t
  obtain ⟨q0, q1, q2⟩ := proj2_index1 t
  obtain ⟨r0, r1⟩ := bias_index1 t
  refine (out1_3_apply (iblk1 V c 0 t) (iblk1 V c 1 t) (iblk1 V c 2 t) a b n).trans ?_
  unfold pairsum
  refine congrArg₂ (· + ·) (congrArg₂ (· + ·) ?_ ?_) ?_
  · exact blk1_proj1 V c t a n _ (by show (i 0).val = _; omega) (by show (i 1).val = _; omega) (by show (i 3).val = _; omega)
  · exact blk1_proj2 V c t b n _ (by show (i 0).val = _; omega) (by show (i 2).val = _; omega) (by show (i 3).val = _; omega)
  · exact blk1_bias V c t n _ (by show (0 : Nat) = _; omega) (by show (i 3).val = _; omega)

/-- WHAT POINT `t` WRITES BACK is block `t` of `pairsum` of the three arrays as the region finds them. -/
theorem flushed_eq1 (c : Dev nD) (t : Fin cfg1.N) :
    (dat1 (F := Ideal) V c).flushed 3 t
      = ((cfg1.win 3).blk t).view.read (Elt Ideal) (pairsum (V c main_v12) (V c main_v14) (V c main_v15)) := by
  show (cfg1.win 3).cut (grid1.coords t) ((dat1 (F := Ideal) V c).after 3 t) = _
  rw [after1_3]
  funext j
  have hj0 : (j 0).val < 1 := (j 0).isLt
  have hj1 : (j 1).val < 64 := (j 1).isLt
  have hj2 : (j 2).val < 64 := (j 2).isLt
  have hj3 : (j 3).val < 301 := (j 3).isLt
  have e : (cfg1.win 3).xinj (grid1.coords t) j
      = ix4 (0 : Fin 1) (⟨(j 1).val, hj1⟩ : Fin 64) (⟨(j 2).val, hj2⟩ : Fin 64) (⟨(j 3).val, hj3⟩ : Fin 301) := by
    funext d
    apply Fin.ext
    match d with
    | ⟨0, _⟩ => show (j 0).val = 0; omega
    | ⟨1, _⟩ => rfl
    | ⟨2, _⟩ => rfl
    | ⟨3, _⟩ => rfl
  show out1_3 (F := Ideal) (iblk1 V c 0 t) (iblk1 V c 1 t) (iblk1 V c 2 t) ((cfg1.win 3).xinj (grid1.coords t) j)
      = pairsum (V c main_v12) (V c main_v14) (V c main_v15) (((cfg1.win 3).blk t).view.emb j)
  refine (congrArg (out1_3 (F := Ideal) (iblk1 V c 0 t) (iblk1 V c 1 t) (iblk1 V c 2 t)) e).trans ?_
  refine out_entry1 V c t _ _ _ _ ?_ ?_ ?_ ?_
  · show win1_3.index t (0 : Fin 4) * 1 + 1 * (j 0).val = win1_3.index t (0 : Fin 4); omega
  · show win1_3.index t (1 : Fin 4) * 64 + 1 * (j 1).val = win1_3.index t (1 : Fin 4) * 64 + (j 1).val; omega
  · show win1_3.index t (2 : Fin 4) * 64 + 1 * (j 2).val = win1_3.index t (2 : Fin 4) * 64 + (j 2).val; omega
  · obtain ⟨-, -, -, o3⟩ := out_index_range1 t
    show win1_3.index t (3 : Fin 4) * 301 + 1 * (j 3).val = (j 3).val; omega

/-! ## The blocks tile the array -/

/-- An index of the array is in point `t`'s block iff each coordinate is in the block's range on its axis. -/
theorem mem_out_blk1 (t : Fin cfg1.N) (i : S8x256x256x301.Idx) :
    i ∈ ((cfg1.win 3).blk t).view.set ↔ ∀ a : Fin 4, win1_3.index t a * S1x64x64x301.size a ≤ (i a).val
      ∧ (i a).val < win1_3.index t a * S1x64x64x301.size a + S1x64x64x301.size a := by
  show i ∈ ((View.whole main_v16).slice (win1_3.rect t)).set ↔ _
  rw [View.set_slice_whole, Rect.mem_set_unit]
  exact Iff.rfl

/-- Entry (B, R, C, n) of the array is in the block of the point whose block index is (B, R / 64, C / 64, 0). -/
theorem out_cover1 (i : S8x256x256x301.Idx) :
    ∃ t : Fin cfg1.N, (cfg1.win 3).flush t = true ∧ i ∈ ((cfg1.win 3).blk t).view.set := by
  have hi0 : (i 0).val < 8 := (i 0).isLt
  have hi1 : (i 1).val < 256 := (i 1).isLt
  have hi2 : (i 2).val < 256 := (i 2).isLt
  have hi3 : (i 3).val < 301 := (i 3).isLt
  obtain ⟨t, ht⟩ := out_index_onto1 ⟨(i 0).val, hi0⟩ ⟨(i 1).val / 64, by omega⟩ ⟨(i 2).val / 64, by omega⟩
  have q0 : win1_3.index t (0 : Fin 4) = (i 0).val := congrFun ht 0
  have q1 : win1_3.index t (1 : Fin 4) = (i 1).val / 64 := congrFun ht 1
  have q2 : win1_3.index t (2 : Fin 4) = (i 2).val / 64 := congrFun ht 2
  have q3 : win1_3.index t (3 : Fin 4) = 0 := congrFun ht 3
  refine ⟨t, flush1_3 t, ?_⟩
  rw [mem_out_blk1]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 64 ≤ (i 1).val ∧ (i 1).val < win1_3.index t (1 : Fin 4) * 64 + 64; omega
  | ⟨2, _⟩ => show win1_3.index t (2 : Fin 4) * 64 ≤ (i 2).val ∧ (i 2).val < win1_3.index t (2 : Fin 4) * 64 + 64; omega
  | ⟨3, _⟩ => show win1_3.index t (3 : Fin 4) * 301 ≤ (i 3).val ∧ (i 3).val < win1_3.index t (3 : Fin 4) * 301 + 301; omega

end

/-- After the expansion region its output array holds `pairsum` of the three arrays the region was entered with. -/
theorem final1 (V : (c : Dev nD) → (b : Ref sig .tc) → Buf (Elt Ideal) ((c : Thread nD τ).loc b)) (c : Dev nD) :
    (dat1 (F := Ideal) V c).arrAt 3 cfg1.N = pairsum (V c main_v12) (V c main_v14) (V c main_v15) :=
  (dat1 (F := Ideal) V c).arrAt_eq_of_cover 3 (pairsum (V c main_v12) (V c main_v14) (V c main_v15))
    (fun t _ => flushed_eq1 V c t) out_cover1

end Cert.KernelIdeal.Frame

end
-- ==== Proof.Spec.lean ====
/-
  The two results as functions of the five argument arrays, index by index, on the extended reals.
  Atom logits:  out[b, l, a]    = (Σ_k x[b, l, k] · Wa[a, k]) + ba[a].
  Bond logits:  out[b, i, j, n] = ((Σ_k x[b, i, k] · Wb[n, k]) + (Σ_k x[b, j, k] · Wb[n, 768 + k])) + bb[n]:
  the linear layer on the concatenation of token i's and token j's states, split into the two halves of its weight.
-/
import Idealize.ShloMosaic.PureOps.Ideal
import Idealize.ShloMosaic.Lib.ValueIdx

noncomputable section

open scoped BigOperators

namespace Cert.Spec

open Idealize.ShloMosaic Idealize.ShloMosaic.ValueIdx

/-- Column `k` of the first half of row `n` of the bond weight. -/
abbrev wbLo (n : Fin 301) (k : Fin 768) : (⟨2, ![301, 1536]⟩ : Shape).Idx :=
  ix2 n (⟨k.val, by have := k.isLt; omega⟩ : Fin 1536)
/-- Column `k` of the second half of row `n` of the bond weight. -/
abbrev wbHi (n : Fin 301) (k : Fin 768) : (⟨2, ![301, 1536]⟩ : Shape).Idx :=
  ix2 n (⟨768 + k.val, by have := k.isLt; omega⟩ : Fin 1536)

/-- The atom head: each token's state against each atom template's weight row, plus that template's bias. -/
def atomSpec (x : FVec Ideal ⟨3, ![8, 256, 768]⟩ .f32) (wa : FVec Ideal ⟨2, ![1001, 768]⟩ .f32) (ba : FVec Ideal ⟨1, ![1001]⟩ .f32) :
    FVec Ideal ⟨3, ![8, 256, 1001]⟩ .f32 :=
  fun i => (∑ k : Fin 768, x (ix3 (i 0) (i 1) k) * wa (ix2 (i 2) k)) + ba (ix1 (i 2))

/-- The bond head: token i's state against the first half of a bond template's weight row, token j's against the second
    half, plus that template's bias. -/
def bondSpec (x : FVec Ideal ⟨3, ![8, 256, 768]⟩ .f32) (wb : FVec Ideal ⟨2, ![301, 1536]⟩ .f32) (bb : FVec Ideal ⟨1, ![301]⟩ .f32) :
    FVec Ideal ⟨4, ![8, 256, 256, 301]⟩ .f32 :=
  fun i => ((∑ k : Fin 768, x (ix3 (i 0) (i 1) k) * wb (wbLo (i 3) k))
      + (∑ k : Fin 768, x (ix3 (i 0) (i 2) k) * wb (wbHi (i 3) k))) + bb (ix1 (i 3))

end Cert.Spec

end
-- ==== Proof.KIHost.lean ====
/-
  The host stretches read at an index, on the extended reals.  Before the projection call: the states flattened to
  2048 rows (row 256·b + l is token (b, l)); the weight matrix the atom weight's 1001 rows, then the first halves of the
  bond weight's 301 rows, then their second halves; the bias row the atom bias, then 602 zeros.  After it: the atom logits
  are columns 0 … 1000 of the combined projection, the two bond projections columns 1001 … 1301 and 1302 … 1602, each
  reshaped back to batch × token; the bond bias as a row.
-/
import proofs.«175412_j6459630814081_1_alg».proof.Proof.KIRun
import proofs.«175412_j6459630814081_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Frame

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The layout operations of the two stretches, read at coordinates (any contents) -/

section Reads
variable {α : Type}

/-- An [8,256,768] array flattened to [2048,768]: row 256·b + l is (b, l). -/
theorem flat768_apply (x : S8x256x768.Idx → α) (b : Fin 8) (l : Fin 256) (k : Fin 768) (hb : b.val * 256 + l.val < 2048) :
    shapeCast S2048x768 x shapeCasts_S8x256x768_S2048x768 (ix2 (⟨b.val * 256 + l.val, hb⟩ : Fin 2048) k) = x (ix3 b l k) := by
  refine shapeCast_apply x shapeCasts_S8x256x768_S2048x768 _ (ix3 b l k) ?_
  rw [Shape.rowMajor_val_two, Shape.rowMajor_val_three]
  rfl

/-- A [2048,1001] array cut back to [8,256,1001]: (b, l) is row 256·b + l. -/
theorem unflat1001_apply (y : S2048x1001.Idx → α) (b : Fin 8) (l : Fin 256) (a : Fin 1001) (hb : b.val * 256 + l.val < 2048) :
    shapeCast S8x256x1001 y shapeCasts_S2048x1001_S8x256x1001 (ix3 b l a) = y (ix2 (⟨b.val * 256 + l.val, hb⟩ : Fin 2048) a) := by
  refine shapeCast_apply y shapeCasts_S2048x1001_S8x256x1001 _ (ix2 (⟨b.val * 256 + l.val, hb⟩ : Fin 2048) a) ?_
  rw [Shape.rowMajor_val_two, Shape.rowMajor_val_three]
  rfl

/-- The same at 301 columns. -/
theorem unflat301_apply (y : S2048x301.Idx → α) (b : Fin 8) (l : Fin 256) (n : Fin 301) (hb : b.val * 256 + l.val < 2048) :
    shapeCast S8x256x301 y shapeCasts_S2048x301_S8x256x301 (ix3 b l n) = y (ix2 (⟨b.val * 256 + l.val, hb⟩ : Fin 2048) n) := by
  refine shapeCast_apply y shapeCasts_S2048x301_S8x256x301 _ (ix2 (⟨b.val * 256 + l.val, hb⟩ : Fin 2048) n) ?_
  rw [Shape.rowMajor_val_two, Shape.rowMajor_val_three]
  rfl

/-- A vector as a one-row matrix. -/
theorem row1603_apply (y : S1603.Idx → α) (n : Fin 1603) :
    shapeCast S1x1603 y shapeCasts_S1603_S1x1603 (ix2 (0 : Fin 1) n) = y (ix1 n) := by
  refine shapeCast_apply y shapeCasts_S1603_S1x1603 _ (ix1 n) ?_
  rw [Shape.rowMajor_val_two, Shape.rowMajor_val_one]
  show n.val = 0 * 1603 + n.val
  omega

/-- The same at 301 lanes. -/
theorem row301_apply (y : S301.Idx → α) (n : Fin 301) :
    shapeCast S1x301 y shapeCasts_S301_S1x301 (ix2 (0 : Fin 1) n) = y (ix1 n) := by
  refine shapeCast_apply y shapeCasts_S301_S1x301 _ (ix1 n) ?_
  rw [Shape.rowMajor_val_two, Shape.rowMajor_val_one]
  show n.val = 0 * 301 + n.val
  omega

end Reads

section Reads2
variable {α : Type}

/-- The first-half slice of the bond weight. -/
theorem sliceLo_apply (x : S301x1536.Idx → α) (n : Fin 301) (k : Fin 768) :
    extractStridedSlice S301x768 ![0, 0] x slices_S301x1536_S301x768_0_0 (ix2 n k) = x (Cert.Spec.wbLo n k) :=
  extractStridedSlice_apply ![0, 0] x slices_S301x1536_S301x768_0_0 (ix2 n k) (Cert.Spec.wbLo n k) (fun a => match a with
    | ⟨0, _⟩ => by show n.val = 0 + n.val; omega
    | ⟨1, _⟩ => by show k.val = 0 + k.val; omega)

/-- The second-half slice of the bond weight. -/
theorem sliceHi_apply (x : S301x1536.Idx → α) (n : Fin 301) (k : Fin 768) :
    extractStridedSlice S301x768 ![0, 768] x slices_S301x1536_S301x768_0_768 (ix2 n k) = x (Cert.Spec.wbHi n k) :=
  extractStridedSlice_apply ![0, 768] x slices_S301x1536_S301x768_0_768 (ix2 n k) (Cert.Spec.wbHi n k) (fun a => match a with
    | ⟨0, _⟩ => by show n.val = 0 + n.val; omega
    | ⟨1, _⟩ => by show 768 + k.val = 768 + k.val; omega)

/-- Columns 0 … 1000 of the combined projection. -/
theorem cols0_apply (z : S2048x1603.Idx → α) (r : Fin 2048) (a : Fin 1001) (ha : a.val < 1603) :
    extractStridedSlice S2048x1001 ![0, 0] z slices_S2048x1603_S2048x1001_0_0 (ix2 r a) = z (ix2 r (⟨a.val, ha⟩ : Fin 1603)) :=
  extractStridedSlice_apply ![0, 0] z slices_S2048x1603_S2048x1001_0_0 (ix2 r a) (ix2 r (⟨a.val, ha⟩ : Fin 1603)) (fun d => match d with
    | ⟨0, _⟩ => by show r.val = 0 + r.val; omega
    | ⟨1, _⟩ => by show a.val = 0 + a.val; omega)

/-- Columns 1001 … 1301. -/
theorem cols1001_apply (z : S2048x1603.Idx → α) (r : Fin 2048) (n : Fin 301) (hn : 1001 + n.val < 1603) :
    extractStridedSlice S2048x301 ![0, 1001] z slices_S2048x1603_S2048x301_0_1001 (ix2 r n) = z (ix2 r (⟨1001 + n.val, hn⟩ : Fin 1603)) :=
  extractStridedSlice_apply ![0, 1001] z slices_S2048x1603_S2048x301_0_1001 (ix2 r n) (ix2 r (⟨1001 + n.val, hn⟩ : Fin 1603)) (fun d => match d with
    | ⟨0, _⟩ => by show r.val = 0 + r.val; omega
    | ⟨1, _⟩ => by show 1001 + n.val = 1001 + n.val; omega)

/-- Columns 1302 … 1602. -/
theorem cols1302_apply (z : S2048x1603.Idx → α) (r : Fin 2048) (n : Fin 301) (hn : 1302 + n.val < 1603) :
    extractStridedSlice S2048x301 ![0, 1302] z slices_S2048x1603_S2048x301_0_1302 (ix2 r n) = z (ix2 r (⟨1302 + n.val, hn⟩ : Fin 1603)) :=
  extractStridedSlice_apply ![0, 1302] z slices_S2048x1603_S2048x301_0_1302 (ix2 r n) (ix2 r (⟨1302 + n.val, hn⟩ : Fin 1603)) (fun d => match d with
    | ⟨0, _⟩ => by show r.val = 0 + r.val; omega
    | ⟨1, _⟩ => by show 1302 + n.val = 1302 + n.val; omega)

end Reads2

section Reads3
variable {α : Type}

/-- The weight concatenation, first piece: rows 0 … 1000. -/
theorem catW_atom (x₁ : S1001x768.Idx → α) (x₂ x₃ : S301x768.Idx → α) (a : Fin 1001) (k : Fin 768) (ha : a.val < 1603) :
    concatenate S1603x768 0 [⟨S1001x768, x₁⟩, ⟨S301x768, x₂⟩, ⟨S301x768, x₃⟩]
        concatenates_S1001x768_S301x768_S301x768_S1603x768_d0 (ix2 (⟨a.val, ha⟩ : Fin 1603) k) = x₁ (ix2 a k) :=
  concatenate_apply_piece 0 [⟨S1001x768, x₁⟩, ⟨S301x768, x₂⟩, ⟨S301x768, x₃⟩] concatenates_S1001x768_S301x768_S301x768_S1603x768_d0
    (ix2 (⟨a.val, ha⟩ : Fin 1603) k) 0 (by show 0 < 3; omega) S1001x768 x₁ rfl rfl 0 rfl
    (ix2 a k) (fun d => match d with
      | ⟨0, _⟩ => fun hne => absurd rfl hne
      | ⟨1, _⟩ => fun _ => rfl)
    (by show 0 + a.val = a.val; omega)

/-- Second piece: rows 1001 … 1301. -/
theorem catW_lo (x₁ : S1001x768.Idx → α) (x₂ x₃ : S301x768.Idx → α) (n : Fin 301) (k : Fin 768) (hn : 1001 + n.val < 1603) :
    concatenate S1603x768 0 [⟨S1001x768, x₁⟩, ⟨S301x768, x₂⟩, ⟨S301x768, x₃⟩]
        concatenates_S1001x768_S301x768_S301x768_S1603x768_d0 (ix2 (⟨1001 + n.val, hn⟩ : Fin 1603) k) = x₂ (ix2 n k) :=
  concatenate_apply_piece 0 [⟨S1001x768, x₁⟩, ⟨S301x768, x₂⟩, ⟨S301x768, x₃⟩] concatenates_S1001x768_S301x768_S301x768_S1603x768_d0
    (ix2 (⟨1001 + n.val, hn⟩ : Fin 1603) k) 1 (by show 1 < 3; omega) S301x768 x₂ rfl rfl 1001 rfl
    (ix2 n k) (fun d => match d with
      | ⟨0, _⟩ => fun hne => absurd rfl hne
      | ⟨1, _⟩ => fun _ => rfl)
    (by show 1001 + n.val = 1001 + n.val; rfl)

/-- Third piece: rows 1302 … 1602. -/
theorem catW_hi (x₁ : S1001x768.Idx → α) (x₂ x₃ : S301x768.Idx → α) (n : Fin 301) (k : Fin 768) (hn : 1302 + n.val < 1603) :
    concatenate S1603x768 0 [⟨S1001x768, x₁⟩, ⟨S301x768, x₂⟩, ⟨S301x768, x₃⟩]
        concatenates_S1001x768_S301x768_S301x768_S1603x768_d0 (ix2 (⟨1302 + n.val, hn⟩ : Fin 1603) k) = x₃ (ix2 n k) :=
  concatenate_apply_piece 0 [⟨S1001x768, x₁⟩, ⟨S301x768, x₂⟩, ⟨S301x768, x₃⟩] concatenates_S1001x768_S301x768_S301x768_S1603x768_d0
    (ix2 (⟨1302 + n.val, hn⟩ : Fin 1603) k) 2 (by show 2 < 3; omega) S301x768 x₃ rfl rfl 1302 rfl
    (ix2 n k) (fun d => match d with
      | ⟨0, _⟩ => fun hne => absurd rfl hne
      | ⟨1, _⟩ => fun _ => rfl)
    (by show 1302 + n.val = 1302 + n.val; rfl)

/-- The bias concatenation, first piece: lanes 0 … 1000. -/
theorem catB_atom (y₁ : S1001.Idx → α) (y₂ y₃ : S301.Idx → α) (a : Fin 1001) (ha : a.val < 1603) :
    concatenate S1603 0 [⟨S1001, y₁⟩, ⟨S301, y₂⟩, ⟨S301, y₃⟩] concatenates_S1001_S301_S301_S1603_d0 (ix1 (⟨a.val, ha⟩ : Fin 1603)) = y₁ (ix1 a) :=
  concatenate_apply_piece 0 [⟨S1001, y₁⟩, ⟨S301, y₂⟩, ⟨S301, y₃⟩] concatenates_S1001_S301_S301_S1603_d0
    (ix1 (⟨a.val, ha⟩ : Fin 1603)) 0 (by show 0 < 3; omega) S1001 y₁ rfl rfl 0 rfl
    (ix1 a) (fun d => match d with
      | ⟨0, _⟩ => fun hne => absurd rfl hne)
    (by show 0 + a.val = a.val; omega)

/-- Second piece: lanes 1001 … 1301. -/
theorem catB_lo (y₁ : S1001.Idx → α) (y₂ y₃ : S301.Idx → α) (n : Fin 1603) (h₁ : 1001 ≤ n.val) (h₂ : n.val < 1302) :
    concatenate S1603 0 [⟨S1001, y₁⟩, ⟨S301, y₂⟩, ⟨S301, y₃⟩] concatenates_S1001_S301_S301_S1603_d0 (ix1 n)
      = y₂ (ix1 (⟨n.val - 1001, by omega⟩ : Fin 301)) :=
  concatenate_apply_piece 0 [⟨S1001, y₁⟩, ⟨S301, y₂⟩, ⟨S301, y₃⟩] concatenates_S1001_S301_S301_S1603_d0
    (ix1 n) 1 (by show 1 < 3; omega) S301 y₂ rfl rfl 1001 rfl
    (ix1 (⟨n.val - 1001, by omega⟩ : Fin 301)) (fun d => match d with
      | ⟨0, _⟩ => fun hne => absurd rfl hne)
    (by show 1001 + (n.val - 1001) = n.val; omega)

/-- Third piece: lanes 1302 … 1602. -/
theorem catB_hi (y₁ : S1001.Idx → α) (y₂ y₃ : S301.Idx → α) (n : Fin 1603) (h₁ : 1302 ≤ n.val) :
    concatenate S1603 0 [⟨S1001, y₁⟩, ⟨S301, y₂⟩, ⟨S301, y₃⟩] concatenates_S1001_S301_S301_S1603_d0 (ix1 n)
      = y₃ (ix1 (⟨n.val - 1302, by have := n.isLt; omega⟩ : Fin 301)) :=
  concatenate_apply_piece 0 [⟨S1001, y₁⟩, ⟨S301, y₂⟩, ⟨S301, y₃⟩] concatenates_S1001_S301_S301_S1603_d0
    (ix1 n) 2 (by show 2 < 3; omega) S301 y₃ rfl rfl 1302 rfl
    (ix1 (⟨n.val - 1302, by have := n.isLt; omega⟩ : Fin 301)) (fun d => match d with
      | ⟨0, _⟩ => fun hne => absurd rfl hne)
    (by show 1302 + (n.val - 1302) = n.val; omega)

/-- The zero word broadcast to a vector is zero at every lane. -/
theorem zeros301_apply (i : S301.Idx) :
    broadcastInDim S301 ![] bcast_S_S301 (constant (F := Ideal) S_ .f32 0x00000000#32) i = (0 : EReal) := by
  refine (broadcastInDim_apply _ bcast_S_S301 (constant (F := Ideal) S_ .f32 0x00000000#32) i ix0 (fun a => a.elim0)).trans ?_
  rw [constant_apply]
  exact Ideal.ofBits_zero_f32

end Reads3

/-! ## The stages as terms: each written array is its operations' term over the contents before the stretch -/

/-- The flattened states are the states, reshaped. -/
theorem E1_v0_term (c : Dev nD) :
    (E1 m ρ c main_v0 : S2048x768.Idx → EReal)
      = shapeCast S2048x768 (m ((c : Thread nD τ).loc main_arg0)) shapeCasts_S8x256x768_S2048x768 := by
  dsimp only [E1, B1, Gen.hostOps0]; after_results; rfl

/-- The concatenated weight: the atom weight, then the two column halves of the bond weight. -/
theorem E1_v3_term (c : Dev nD) :
    (E1 m ρ c main_v3 : S1603x768.Idx → EReal)
      = concatenate S1603x768 0 [⟨S1001x768, m ((c : Thread nD τ).loc main_arg1)⟩,
          ⟨S301x768, extractStridedSlice S301x768 ![0, 0] (m ((c : Thread nD τ).loc main_arg3)) slices_S301x1536_S301x768_0_0⟩,
          ⟨S301x768, extractStridedSlice S301x768 ![0, 768] (m ((c : Thread nD τ).loc main_arg3)) slices_S301x1536_S301x768_0_768⟩]
          concatenates_S1001x768_S301x768_S301x768_S1603x768_d0 := by
  dsimp only [E1, B1, Gen.hostOps0]; after_results; rfl

/-- The concatenated bias row: the atom bias, then two vectors of the zero word, as one row. -/
theorem E1_v7_term (c : Dev nD) :
    (E1 m ρ c main_v7 : S1x1603.Idx → EReal)
      = shapeCast S1x1603 (concatenate S1603 0 [⟨S1001, m ((c : Thread nD τ).loc main_arg2)⟩,
          ⟨S301, broadcastInDim S301 ![] bcast_S_S301 (constant (F := Ideal) S_ .f32 0x00000000#32)⟩,
          ⟨S301, broadcastInDim S301 ![] bcast_S_S301 (constant (F := Ideal) S_ .f32 0x00000000#32)⟩]
          concatenates_S1001_S301_S301_S1603_d0) shapeCasts_S1603_S1x1603 := by
  dsimp only [E1, B1, Gen.hostOps0]; after_results; rfl

/-- The atom logits at the expansion call's entry: a column slice of the combined projection, cut to batch × token. -/
theorem E3_v10_term (c : Dev nD) :
    (E3 m ρ c main_v10 : S8x256x1001.Idx → EReal)
      = shapeCast S8x256x1001 (extractStridedSlice S2048x1001 ![0, 0] (E2 m ρ c main_v8) slices_S2048x1603_S2048x1001_0_0)
          shapeCasts_S2048x1001_S8x256x1001 := by
  dsimp only [E3, B3, Gen.hostOps1]; after_results; rfl

/-- The first bond projection at the expansion call's entry: columns from 1001 on, cut to batch × token. -/
theorem E3_v12_term (c : Dev nD) :
    (E3 m ρ c main_v12 : S8x256x301.Idx → EReal)
      = shapeCast S8x256x301 (extractStridedSlice S2048x301 ![0, 1001] (E2 m ρ c main_v8) slices_S2048x1603_S2048x301_0_1001)
          shapeCasts_S2048x301_S8x256x301 := by
  dsimp only [E3, B3, Gen.hostOps1]; after_results; rfl

/-- The second bond projection: columns from 1302 on. -/
theorem E3_v14_term (c : Dev nD) :
    (E3 m ρ c main_v14 : S8x256x301.Idx → EReal)
      = shapeCast S8x256x301 (extractStridedSlice S2048x301 ![0, 1302] (E2 m ρ c main_v8) slices_S2048x1603_S2048x301_0_1302)
          shapeCasts_S2048x301_S8x256x301 := by
  dsimp only [E3, B3, Gen.hostOps1]; after_results; rfl

/-- The bond bias, as one row. -/
theorem E3_v15_term (c : Dev nD) :
    (E3 m ρ c main_v15 : S1x301.Idx → EReal)
      = shapeCast S1x301 (m ((c : Thread nD τ).loc main_arg4)) shapeCasts_S301_S1x301 := by
  dsimp only [E3, B3, Gen.hostOps1]; after_results; rfl

/-! ## The arrays read at coordinates -/

/-- Row 256·b + l of the flattened states is token (b, l). -/
theorem E1_v0 (c : Dev nD) (b : Fin 8) (l : Fin 256) (k : Fin 768) :
    E1 m ρ c main_v0 (ix2 (⟨b.val * 256 + l.val, by have := b.isLt; have := l.isLt; omega⟩ : Fin 2048) k)
      = m ((c : Thread nD τ).loc main_arg0) (ix3 b l k) := by
  exact (congrFun (E1_v0_term m ρ c) _).trans (flat768_apply _ b l k _)

/-- Rows 0 … 1000 of the concatenated weight are the atom weight's. -/
theorem E1_v3_atom (c : Dev nD) (a : Fin 1001) (k : Fin 768) :
    E1 m ρ c main_v3 (ix2 (⟨a.val, by have := a.isLt; omega⟩ : Fin 1603) k) = m ((c : Thread nD τ).loc main_arg1) (ix2 a k) := by
  exact (congrFun (E1_v3_term m ρ c) _).trans (catW_atom _ _ _ a k _)

/-- Rows 1001 … 1301 are the first halves of the bond weight's rows. -/
theorem E1_v3_lo (c : Dev nD) (n : Fin 301) (k : Fin 768) :
    E1 m ρ c main_v3 (ix2 (⟨1001 + n.val, by have := n.isLt; omega⟩ : Fin 1603) k)
      = m ((c : Thread nD τ).loc main_arg3) (Cert.Spec.wbLo n k) := by
  exact ((congrFun (E1_v3_term m ρ c) _).trans (catW_lo _ _ _ n k _)).trans (sliceLo_apply _ n k)

/-- Rows 1302 … 1602 are the second halves of the bond weight's rows. -/
theorem E1_v3_hi (c : Dev nD) (n : Fin 301) (k : Fin 768) :
    E1 m ρ c main_v3 (ix2 (⟨1302 + n.val, by have := n.isLt; omega⟩ : Fin 1603) k)
      = m ((c : Thread nD τ).loc main_arg3) (Cert.Spec.wbHi n k) := by
  exact ((congrFun (E1_v3_term m ρ c) _).trans (catW_hi _ _ _ n k _)).trans (sliceHi_apply _ n k)

/-- Lanes 0 … 1000 of the concatenated bias row are the atom bias. -/
theorem E1_v7_atom (c : Dev nD) (a : Fin 1001) :
    E1 m ρ c main_v7 (ix2 (0 : Fin 1) (⟨a.val, by have := a.isLt; omega⟩ : Fin 1603)) = m ((c : Thread nD τ).loc main_arg2) (ix1 a) := by
  exact ((congrFun (E1_v7_term m ρ c) _).trans (row1603_apply _ _)).trans (catB_atom _ _ _ a _)

/-- Lanes 1001 … 1602 of the concatenated bias row are zero. -/
theorem E1_v7_zero (c : Dev nD) (n : Fin 1603) (h : 1001 ≤ n.val) :
    E1 m ρ c main_v7 (ix2 (0 : Fin 1) n) = (0 : EReal) := by
  refine ((congrFun (E1_v7_term m ρ c) _).trans (row1603_apply _ n)).trans ?_
  by_cases h₂ : n.val < 1302
  · exact (catB_lo _ _ _ n h h₂).trans (zeros301_apply _)
  · exact (catB_hi _ _ _ n (Nat.le_of_not_lt h₂)).trans (zeros301_apply _)

/-- The first bond projection is columns 1001 … 1301 of the combined projection, row 256·b + l at token (b, l). -/
theorem E3_v12 (c : Dev nD) (b : Fin 8) (l : Fin 256) (n : Fin 301) :
    E3 m ρ c main_v12 (ix3 b l n)
      = E2 m ρ c main_v8 (ix2 (⟨b.val * 256 + l.val, by have := b.isLt; have := l.isLt; omega⟩ : Fin 2048) (⟨1001 + n.val, by have := n.isLt; omega⟩ : Fin 1603)) := by
  exact ((congrFun (E3_v12_term m ρ c) _).trans (unflat301_apply _ b l n (by have := b.isLt; have := l.isLt; omega))).trans
    (cols1001_apply _ _ n _)

/-- The second bond projection is columns 1302 … 1602. -/
theorem E3_v14 (c : Dev nD) (b : Fin 8) (l : Fin 256) (n : Fin 301) :
    E3 m ρ c main_v14 (ix3 b l n)
      = E2 m ρ c main_v8 (ix2 (⟨b.val * 256 + l.val, by have := b.isLt; have := l.isLt; omega⟩ : Fin 2048) (⟨1302 + n.val, by have := n.isLt; omega⟩ : Fin 1603)) := by
  exact ((congrFun (E3_v14_term m ρ c) _).trans (unflat301_apply _ b l n (by have := b.isLt; have := l.isLt; omega))).trans
    (cols1302_apply _ _ n _)

/-- The bond bias as a row. -/
theorem E3_v15 (c : Dev nD) (n : Fin 301) :
    E3 m ρ c main_v15 (ix2 (0 : Fin 1) n) = m ((c : Thread nD τ).loc main_arg4) (ix1 n) := by
  exact (congrFun (E3_v15_term m ρ c) _).trans (row301_apply _ n)

/-- The atom logits are columns 0 … 1000 of the combined projection; the expansion call leaves them as they were. -/
theorem E4_v10 (c : Dev nD) (b : Fin 8) (l : Fin 256) (a : Fin 1001) :
    E4 m ρ c main_v10 (ix3 b l a)
      = E2 m ρ c main_v8 (ix2 (⟨b.val * 256 + l.val, by have := b.isLt; have := l.isLt; omega⟩ : Fin 2048) (⟨a.val, by have := a.isLt; omega⟩ : Fin 1603)) := by
  have h4 : E4 m ρ c main_v10 = E3 m ρ c main_v10 := B4_of_ne m ρ c main_v10 (by decide)
  exact (((congrFun h4 _).trans (congrFun (E3_v10_term m ρ c) _)).trans
    (unflat1001_apply _ b l a (by have := b.isLt; have := l.isLt; omega))).trans (cols0_apply _ _ a _)

end Cert.KernelIdeal.Frame

end
-- ==== Proof.KIResult.lean ====
/-
  The two results of the idealized kernel program as the specification's functions of the argument arrays.
  The combined projection at (256·b + l, a) is the sum over k of token (b, l)'s state times row a of the concatenated
  weight, plus lane a of the concatenated bias.  For a < 1001 the row is the atom weight's and the lane the atom bias:
  the atom logits.  For the bond columns the row is a half of the bond weight's row and the lane is zero, and x + 0 = x on
  the extended reals: the expansion call adds the first projection at token i, the second at token j and the bond bias.
-/
import proofs.«175412_j6459630814081_1_alg».proof.Proof.KIRun
import proofs.«175412_j6459630814081_1_alg».proof.Proof.KIFinal0
import proofs.«175412_j6459630814081_1_alg».proof.Proof.KIFinal1
import proofs.«175412_j6459630814081_1_alg».proof.Proof.KIHost
import proofs.«175412_j6459630814081_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Frame

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The arrays, each named at its literal type -/

/-- The five argument arrays as launched. -/
abbrev a0 (c : Dev nD) : Vec Ideal S8x256x768 .f32 := m ((c : Thread nD τ).loc main_arg0)
abbrev a1 (c : Dev nD) : Vec Ideal S1001x768 .f32 := m ((c : Thread nD τ).loc main_arg1)
abbrev a2 (c : Dev nD) : Vec Ideal S1001 .f32 := m ((c : Thread nD τ).loc main_arg2)
abbrev a3 (c : Dev nD) : Vec Ideal S301x1536 .f32 := m ((c : Thread nD τ).loc main_arg3)
abbrev a4 (c : Dev nD) : Vec Ideal S301 .f32 := m ((c : Thread nD τ).loc main_arg4)
/-- What the first host stretch hands the projection call: the flattened states, the concatenated weight, the
    concatenated bias row. -/
abbrev xs (c : Dev nD) : Vec Ideal S2048x768 .f32 := E1 m ρ c main_v0
abbrev wc (c : Dev nD) : Vec Ideal S1603x768 .f32 := E1 m ρ c main_v3
abbrev bc (c : Dev nD) : Vec Ideal S1x1603 .f32 := E1 m ρ c main_v7
/-- The combined projection after the projection call. -/
abbrev cmb (c : Dev nD) : Vec Ideal S2048x1603 .f32 := E2 m ρ c main_v8
/-- What the second host stretch hands the expansion call: the two bond projections and the bond bias row. -/
abbrev p1 (c : Dev nD) : Vec Ideal S8x256x301 .f32 := E3 m ρ c main_v12
abbrev p2 (c : Dev nD) : Vec Ideal S8x256x301 .f32 := E3 m ρ c main_v14
abbrev bbr (c : Dev nD) : Vec Ideal S1x301 .f32 := E3 m ρ c main_v15

/-! ## The host stretches' reads, over those names -/

theorem xs_apply (c : Dev nD) (b : Fin 8) (l : Fin 256) (k : Fin 768) :
    xs m ρ c (ix2 (⟨b.val * 256 + l.val, by have := b.isLt; have := l.isLt; omega⟩ : Fin 2048) k) = a0 m c (ix3 b l k) :=
  E1_v0 m ρ c b l k
theorem wc_atom (c : Dev nD) (a : Fin 1001) (k : Fin 768) :
    wc m ρ c (ix2 (⟨a.val, by have := a.isLt; omega⟩ : Fin 1603) k) = a1 m c (ix2 a k) := E1_v3_atom m ρ c a k
theorem wc_lo (c : Dev nD) (n : Fin 301) (k : Fin 768) :
    wc m ρ c (ix2 (⟨1001 + n.val, by have := n.isLt; omega⟩ : Fin 1603) k) = a3 m c (Cert.Spec.wbLo n k) := E1_v3_lo m ρ c n k
theorem wc_hi (c : Dev nD) (n : Fin 301) (k : Fin 768) :
    wc m ρ c (ix2 (⟨1302 + n.val, by have := n.isLt; omega⟩ : Fin 1603) k) = a3 m c (Cert.Spec.wbHi n k) := E1_v3_hi m ρ c n k
theorem bc_atom (c : Dev nD) (a : Fin 1001) :
    bc m ρ c (ix2 (0 : Fin 1) (⟨a.val, by have := a.isLt; omega⟩ : Fin 1603)) = a2 m c (ix1 a) := E1_v7_atom m ρ c a
theorem bc_zero (c : Dev nD) (n : Fin 1603) (h : 1001 ≤ n.val) : bc m ρ c (ix2 (0 : Fin 1) n) = 0 := E1_v7_zero m ρ c n h
theorem p1_apply (c : Dev nD) (b : Fin 8) (l : Fin 256) (n : Fin 301) :
    p1 m ρ c (ix3 b l n) = cmb m ρ c (ix2 (⟨b.val * 256 + l.val, by have := b.isLt; have := l.isLt; omega⟩ : Fin 2048) (⟨1001 + n.val, by have := n.isLt; omega⟩ : Fin 1603)) :=
  E3_v12 m ρ c b l n
theorem p2_apply (c : Dev nD) (b : Fin 8) (l : Fin 256) (n : Fin 301) :
    p2 m ρ c (ix3 b l n) = cmb m ρ c (ix2 (⟨b.val * 256 + l.val, by have := b.isLt; have := l.isLt; omega⟩ : Fin 2048) (⟨1302 + n.val, by have := n.isLt; omega⟩ : Fin 1603)) :=
  E3_v14 m ρ c b l n
theorem bbr_apply (c : Dev nD) (n : Fin 301) : bbr m ρ c (ix2 (0 : Fin 1) n) = a4 m c (ix1 n) := E3_v15 m ρ c n

/-! ## The two regions' output arrays -/

/-- After the projection call its output array is the combined projection of the arrays the first host stretch wrote. -/
theorem cmb_eq (c : Dev nD) : cmb m ρ c = proj (xs m ρ c) (wc m ρ c) (bc m ρ c) :=
  (B2_arr m ρ c 3).trans (final0 (E1 m ρ) c)

/-- The combined projection at a row and a column. -/
theorem cmb_apply (c : Dev nD) (R : Fin 2048) (N : Fin 1603) :
    cmb m ρ c (ix2 R N) = (∑ k : Fin 768, xs m ρ c (ix2 R k) * wc m ρ c (ix2 N k)) + bc m ρ c (ix2 (0 : Fin 1) N) := by
  rw [cmb_eq]; rfl

/-- After the expansion call its output array is the pairwise sum of the arrays the second host stretch wrote. -/
theorem E4_v16 (c : Dev nD) :
    E4 m ρ c main_v16 = pairsum (p1 m ρ c) (p2 m ρ c) (bbr m ρ c) :=
  (B4_arr m ρ c 3).trans (final1 (E3 m ρ) c)

/-! ## The results -/

/-- The atom logits at a token and a template. -/
theorem atom_apply (c : Dev nD) (b : Fin 8) (l : Fin 256) (a : Fin 1001) :
    cmb m ρ c (ix2 (⟨b.val * 256 + l.val, by have := b.isLt; have := l.isLt; omega⟩ : Fin 2048) (⟨a.val, by have := a.isLt; omega⟩ : Fin 1603))
      = (∑ k : Fin 768, a0 m c (ix3 b l k) * a1 m c (ix2 a k)) + a2 m c (ix1 a) := by
  rw [cmb_apply, bc_atom]
  congr 1
  exact Finset.sum_congr rfl fun k _ => by rw [xs_apply, wc_atom]

/-- A bond projection's column of the combined projection: its bias lane is zero. -/
theorem bond_lo_apply (c : Dev nD) (b : Fin 8) (l : Fin 256) (n : Fin 301) :
    cmb m ρ c (ix2 (⟨b.val * 256 + l.val, by have := b.isLt; have := l.isLt; omega⟩ : Fin 2048) (⟨1001 + n.val, by have := n.isLt; omega⟩ : Fin 1603))
      = ∑ k : Fin 768, a0 m c (ix3 b l k) * a3 m c (Cert.Spec.wbLo n k) := by
  rw [cmb_apply, bc_zero m ρ c _ (show 1001 ≤ 1001 + n.val by omega), add_zero]
  exact Finset.sum_congr rfl fun k _ => by rw [xs_apply, wc_lo]

theorem bond_hi_apply (c : Dev nD) (b : Fin 8) (l : Fin 256) (n : Fin 301) :
    cmb m ρ c (ix2 (⟨b.val * 256 + l.val, by have := b.isLt; have := l.isLt; omega⟩ : Fin 2048) (⟨1302 + n.val, by have := n.isLt; omega⟩ : Fin 1603))
      = ∑ k : Fin 768, a0 m c (ix3 b l k) * a3 m c (Cert.Spec.wbHi n k) := by
  rw [cmb_apply, bc_zero m ρ c _ (show 1001 ≤ 1302 + n.val by omega), add_zero]
  exact Finset.sum_congr rfl fun k _ => by rw [xs_apply, wc_hi]

/-- The atom logits: the kernel program's first result is the specification's. -/
theorem result_atom (c : Dev nD) :
    E4 m ρ c main_v10 = Cert.Spec.atomSpec (m ((c : Thread nD τ).loc main_arg0)) (m ((c : Thread nD τ).loc main_arg1)) (m ((c : Thread nD τ).loc main_arg2)) := by
  funext i
  obtain ⟨b, l, a, rfl⟩ : ∃ (b : Fin 8) (l : Fin 256) (a : Fin 1001), i = ix3 b l a := ⟨i 0, i 1, i 2, eq_ix3 i⟩
  rw [E4_v10]
  exact atom_apply m ρ c b l a

/-- The bond logits: the kernel program's second result is the specification's. -/
theorem result_bond (c : Dev nD) :
    E4 m ρ c main_v16 = Cert.Spec.bondSpec (m ((c : Thread nD τ).loc main_arg0)) (m ((c : Thread nD τ).loc main_arg3)) (m ((c : Thread nD τ).loc main_arg4)) := by
  funext i
  obtain ⟨b, p, q, n, rfl⟩ : ∃ (b : Fin 8) (p q : Fin 256) (n : Fin 301), i = ix4 b p q n := ⟨i 0, i 1, i 2, i 3, eq_ix4 i⟩
  rw [E4_v16]
  show (p1 m ρ c (ix3 b p n) + p2 m ρ c (ix3 b q n)) + bbr m ρ c (ix2 (0 : Fin 1) n)
    = ((∑ k : Fin 768, a0 m c (ix3 b p k) * a3 m c (Cert.Spec.wbLo n k))
        + (∑ k : Fin 768, a0 m c (ix3 b q k) * a3 m c (Cert.Spec.wbHi n k))) + a4 m c (ix1 n)
  rw [p1_apply, p2_apply, bbr_apply, bond_lo_apply, bond_hi_apply]

end Cert.KernelIdeal.Frame

end
-- ==== Proof.RefValue.lean ====
/-
  The reference's two results are the specification's two functions, index by index on the extended reals: the
  reference's contraction of the states with a weight matrix is the sum over the state dimension at each (batch, token,
  template), its broadcasts read their operand at the kept coordinates, and its sums are entrywise.
-/
import proofs.«175412_j6459630814081_1_alg».proof.Proof.Gen.ReferenceIdeal.Run
import proofs.«175412_j6459630814081_1_alg».proof.Proof.Gen.ReferenceIdeal.Read
import proofs.«175412_j6459630814081_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-! ### The atom head: which entries each stage reads -/

/-- The atom contraction reads the states at (batch, token, k): the result's first two coordinates and the summed one. -/
theorem lidx_v0_eq (i : S8x256x1001.Idx) (k : Fin 768) : lidx_main_v0 i k = ix3 (i 0) (i 1) k :=
  funext fun a => Fin.ext (by match a with | ⟨0, _⟩ => rfl | ⟨1, _⟩ => rfl | ⟨2, _⟩ => rfl)

/-- The atom contraction reads the weight at (template, k): the result's last coordinate and the summed one. -/
theorem ridx_v0_eq (i : S8x256x1001.Idx) (k : Fin 768) : ridx_main_v0 i k = ix2 (i 2) k :=
  funext fun a => Fin.ext (by match a with | ⟨0, _⟩ => rfl | ⟨1, _⟩ => rfl)

/-- The two broadcasts of the atom bias keep only the template coordinate. -/
theorem idx_v1_v2_eq (i : S8x256x1001.Idx) : idx_main_v1 (idx_main_v2 i) = ix1 (i 2) :=
  funext fun a => Fin.ext (by match a with | ⟨0, _⟩ => rfl)

/-- The reference's atom logits are the specification's. -/
theorem ref_atom (x0 : (⟨S8x256x768, .f32⟩ : BufTy).Contents (Elt Ideal)) (x1 : (⟨S1001x768, .f32⟩ : BufTy).Contents (Elt Ideal))
    (x2 : (⟨S1001, .f32⟩ : BufTy).Contents (Elt Ideal)) :
    val_main_v3 (F := Ideal) x0 x1 x2 = Cert.Spec.atomSpec x0 x1 x2 := by
  funext i
  -- entry i is (the contraction at i) + (the twice-broadcast bias at i); the sum of floats on the extended reals is +
  rw [val_main_v3_apply, val_main_v0_apply, val_main_v2_apply, val_main_v1_apply, idx_v1_v2_eq, Ideal.addf_def]
  unfold Cert.Spec.atomSpec
  refine congrArg (· + x2 (ix1 (i 2))) ?_
  -- under the sum, term k is x[b, l, k] · Wa[a, k] on both sides
  exact Finset.sum_congr rfl fun k _ =>
    congrArg₂ (· * ·) (congrArg x0 (lidx_v0_eq i k)) (congrArg x1 (ridx_v0_eq i k))

/-! ### The bond head: which entries each stage reads -/

/-- Through the two broadcasts along the second token axis, the first contraction reads the states at (batch, token i, k). -/
theorem lidx_v6_eq (i : S8x256x256x301.Idx) (k : Fin 768) :
    lidx_main_v6 (idx_main_v8 (idx_main_v10 i)) k = ix3 (i 0) (i 1) k :=
  funext fun a => Fin.ext (by match a with | ⟨0, _⟩ => rfl | ⟨1, _⟩ => rfl | ⟨2, _⟩ => rfl)

/-- … and, through the slice of the first 768 columns, the bond weight at (template, k). -/
theorem ridx_v6_eq (i : S8x256x256x301.Idx) (k : Fin 768) :
    idx_main_v4 (ridx_main_v6 (idx_main_v8 (idx_main_v10 i)) k) = Cert.Spec.wbLo (i 3) k :=
  funext fun a => Fin.ext (by match a with | ⟨0, _⟩ => rfl | ⟨1, _⟩ => rfl)

/-- Through the two broadcasts along the first token axis, the second contraction reads the states at (batch, token j, k). -/
theorem lidx_v7_eq (i : S8x256x256x301.Idx) (k : Fin 768) :
    lidx_main_v7 (idx_main_v9 (idx_main_v11 i)) k = ix3 (i 0) (i 2) k :=
  funext fun a => Fin.ext (by match a with | ⟨0, _⟩ => rfl | ⟨1, _⟩ => rfl | ⟨2, _⟩ => rfl)

/-- … and, through the slice of the last 768 columns, the bond weight at (template, 768 + k). -/
theorem ridx_v7_eq (i : S8x256x256x301.Idx) (k : Fin 768) :
    idx_main_v5 (ridx_main_v7 (idx_main_v9 (idx_main_v11 i)) k) = Cert.Spec.wbHi (i 3) k :=
  funext fun a => Fin.ext (by match a with | ⟨0, _⟩ => rfl | ⟨1, _⟩ => rfl)

/-- The two broadcasts of the bond bias keep only the template coordinate. -/
theorem idx_v13_v14_eq (i : S8x256x256x301.Idx) : idx_main_v13 (idx_main_v14 i) = ix1 (i 3) :=
  funext fun a => Fin.ext (by match a with | ⟨0, _⟩ => rfl)

/-- The reference's bond logits are the specification's. -/
theorem ref_bond (x0 : (⟨S8x256x768, .f32⟩ : BufTy).Contents (Elt Ideal)) (x3 : (⟨S301x1536, .f32⟩ : BufTy).Contents (Elt Ideal))
    (x4 : (⟨S301, .f32⟩ : BufTy).Contents (Elt Ideal)) :
    val_main_v15 (F := Ideal) x0 x3 x4 = Cert.Spec.bondSpec x0 x3 x4 := by
  funext i
  -- entry i is ((first contraction, broadcast along j) + (second contraction, broadcast along i)) + (broadcast bias)
  rw [val_main_v15_apply, val_main_v12_apply,
    val_main_v10_apply, val_main_v8_apply, val_main_v6_apply,
    val_main_v11_apply, val_main_v9_apply, val_main_v7_apply,
    val_main_v14_apply, val_main_v13_apply, idx_v13_v14_eq]
  simp only [Ideal.addf_def]
  unfold Cert.Spec.bondSpec
  refine congrArg (· + x4 (ix1 (i 3))) (congrArg₂ (· + ·) ?_ ?_)
  -- under the first sum, term k is x[b, i, k] · Wb[n, k]: the slice reads the weight's first half
  · exact Finset.sum_congr rfl fun k _ =>
      congrArg₂ (· * ·) (congrArg x0 (lidx_v6_eq i k)) ((val_main_v4_apply x3 _).trans (congrArg x3 (ridx_v6_eq i k)))
  -- under the second sum, term k is x[b, j, k] · Wb[n, 768 + k]: the slice reads the weight's second half
  · exact Finset.sum_congr rfl fun k _ =>
      congrArg₂ (· * ·) (congrArg x0 (lidx_v7_eq i k)) ((val_main_v5_apply x3 _).trans (congrArg x3 (ridx_v7_eq i k)))

end Cert.ReferenceIdeal.RefValue

end
-- ==== Proof.lean ====
/-
  The certificate's five claims.
  The kernel program projects every token's state once against the concatenation of the atom weight and the two halves
  of the bond weight (one matrix product per row block, bias added), then expands the two bond projections into all
  token pairs by a broadcast sum.  The reference contracts the states with each weight separately and adds the same
  broadcasts.  On the extended reals both give, entry by entry, the atom logits Σ_k x[b,l,k]·Wa[a,k] + ba[a] and the
  bond logits (Σ_k x[b,i,k]·Wb[n,k]) + (Σ_k x[b,j,k]·Wb[n,768+k]) + bb[n]: the only difference is a zero bias added
  to each bond projection by the kernel, and x + 0 = x for every extended real.  No finiteness is needed.
  Frames: each kernel program runs through its two host stretches and two pipelined calls to the end, the argument
  arrays written by nothing; the reference's frame is its run with the results dropped.  The idealization rewrote no
  operation, so what it preserves is trivially so.
-/
import proofs.«175412_j6459630814081_1_alg».proof.Defs
import proofs.«175412_j6459630814081_1_alg».proof.Proof.Gen.Kernel
import proofs.«175412_j6459630814081_1_alg».proof.Proof.Gen.KernelIdeal
import proofs.«175412_j6459630814081_1_alg».proof.Proof.Gen.ReferenceIdeal
import proofs.«175412_j6459630814081_1_alg».proof.Proof.Gen.Pre_finite_inputs
import proofs.«175412_j6459630814081_1_alg».proof.Proof.Gen.ReferenceIdeal.Run
import proofs.«175412_j6459630814081_1_alg».proof.Proof.Gen.ReferenceIdeal.Read
import proofs.«175412_j6459630814081_1_alg».proof.Proof.KRun
import proofs.«175412_j6459630814081_1_alg».proof.Proof.KIRun
import proofs.«175412_j6459630814081_1_alg».proof.Proof.KIResult
import proofs.«175412_j6459630814081_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_kernel [Cert.Kernel.Facts] [Cert.Pre_finite_inputs.Facts] : Cert.frame_Kernel :=
  fun m ρ _ => Cert.Kernel.Frame.frame m ρ

/-- So does its idealization. -/
theorem frame_kernelIdeal [Cert.KernelIdeal.Facts] [Cert.Pre_finite_inputs.Facts] : Cert.frame_KernelIdeal :=
  fun m ρ _ => Cert.KernelIdeal.Frame.frame m ρ

/-- The reference's frame is its run with the two results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both idealized programs end with the specification's atom and bond logits
    of those arguments in their result buffers. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.atomSpec (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
    fun c => Cert.Spec.bondSpec (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Frame.run_all (F := Ideal) m ρ)
    exact ⟨(h c _ (Cert.KernelIdeal.Frame.mem_uc Cert.KernelIdeal.main_v10 (by decide))).trans (Cert.KernelIdeal.Frame.result_atom m ρ c),
      (h c _ (Cert.KernelIdeal.Frame.mem_uc Cert.KernelIdeal.main_v16 (by decide))).trans (Cert.KernelIdeal.Frame.result_bond m ρ c),
      (h c _ (Cert.KernelIdeal.Frame.mem_uc Cert.KernelIdeal.main_arg0 (by decide))).trans (Cert.KernelIdeal.Frame.B4_main_arg0 m ρ c),
      (h c _ (Cert.KernelIdeal.Frame.mem_uc Cert.KernelIdeal.main_arg1 (by decide))).trans (Cert.KernelIdeal.Frame.B4_main_arg1 m ρ c),
      (h c _ (Cert.KernelIdeal.Frame.mem_uc Cert.KernelIdeal.main_arg2 (by decide))).trans (Cert.KernelIdeal.Frame.B4_main_arg2 m ρ c),
      (h c _ (Cert.KernelIdeal.Frame.mem_uc Cert.KernelIdeal.main_arg3 (by decide))).trans (Cert.KernelIdeal.Frame.B4_main_arg3 m ρ c),
      (h c _ (Cert.KernelIdeal.Frame.mem_uc Cert.KernelIdeal.main_arg4 (by decide))).trans (Cert.KernelIdeal.Frame.B4_main_arg4 m ρ c)⟩
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v3_eq, Cert.ReferenceIdeal.RefValue.ref_atom, (hagree c).1, (hagree c).2.1, (hagree c).2.2.1]
    · rw [Cert.ReferenceIdeal.Read.val_main_v15_eq, Cert.ReferenceIdeal.RefValue.ref_bond, (hagree c).1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
